-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S256x256 : Shape := ⟨2, ![256, 256]⟩
abbrev S256 : Shape := ⟨1, ![256]⟩
abbrev S512x256 : Shape := ⟨2, ![512, 256]⟩
abbrev S512x47 : Shape := ⟨2, ![512, 47]⟩
abbrev S47 : Shape := ⟨1, ![47]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512x47 : S_.BroadcastsInDim S512x47 (![] : Fin 0 → Fin S512x47.rank)
  reducesTo_S512x47_S_d0_1 : S512x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S256 .f32) (main_arg5 : FVec F S512x47 .f32) (main_arg6 : FVec F S47 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x47 .f32 := Host.absf main_arg5
  let main_cst_8 : FVec F S_ .f32 := constant S_ .f32 0x7F800000#32
  let main_v25 : FVec F S512x47 .f32 := broadcastInDim S512x47 ![] bcast_S_S512x47 main_cst_8
  let main_v26 : IVec S512x47 1 := cmpf .olt main_v24 main_v25
  let main_c_9 : IVec S_ 1 := constantI S_ 1 1#1
  let main_v27 : IVec S_ 1 := (fun x v => Host.reduce IntOp.andi x v reducesTo_S512x47_S_d0_1 h_S_) main_v26 main_c_9
  let main_v28 : IVec S_ 1 := andi main_v23 main_v27
  let main_v29 : FVec F S47 .f32 := Host.absf main_arg6
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S40000x128 .f32) (main_arg1 : FVec F S256x256 .f32) (main_arg2 : FVec F S256 .f32) (main_arg3 : FVec F S512x256 .f32) (main_arg4 : FVec F S256 .f32) (main_arg5 : FVec F S512x47 .f32) (main_arg6 : FVec F S47 .f32) (main_arg7 : IVec S640000 32) (main_arg8 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S40000x128 : Shape := ⟨2, ![40000, 128]⟩
abbrev S256x256 : Shape := ⟨2, ![256, 256]⟩
abbrev S256 : Shape := ⟨1, ![256]⟩
abbrev S512x256 : Shape := ⟨2, ![512, 256]⟩
abbrev S512x47 : Shape := ⟨2, ![512, 47]⟩
abbrev S47 : Shape := ⟨1, ![47]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S128x256 : Shape := ⟨2, ![128, 256]⟩
abbrev S1x256 : Shape := ⟨2, ![1, 256]⟩
abbrev S40000x256 : Shape := ⟨2, ![40000, 256]⟩
abbrev S2000x128 : Shape := ⟨2, ![2000, 128]⟩
abbrev S2000x1 : Shape := ⟨2, ![2000, 1]⟩
abbrev S2000x256 : Shape := ⟨2, ![2000, 256]⟩
abbrev S640000x256 : Shape := ⟨2, ![640000, 256]⟩
abbrev S256x47 : Shape := ⟨2, ![256, 47]⟩
abbrev S1x47 : Shape := ⟨2, ![1, 47]⟩
abbrev S40000x47 : Shape := ⟨2, ![40000, 47]⟩
abbrev S2000x47 : Shape := ⟨2, ![2000, 47]⟩

abbrev nBuf : Space → Nat
  | .hbm => 79
  | .vmem => 33
  | .smem => 0
  | _ => 0

abbrev bufTy : (tb : Table) → Fin (tcTables nBuf tb) → BufTy
  | .hbm, ⟨0, _⟩ => ⟨S40000x128, .f32⟩
  | .hbm, ⟨1, _⟩ => ⟨S256x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x47, .f32⟩
  | .hbm, ⟨6, _⟩ => ⟨S47, .f32⟩
  | .hbm, ⟨7, _⟩ => ⟨S640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S40000, .f32⟩
  | .hbm, ⟨13, _⟩ => ⟨S640000x1, .i32⟩
  | .hbm, ⟨14, _⟩ => ⟨S40000, .f32⟩
  | .hbm, ⟨15, _⟩ => ⟨S_, .f32⟩
  | .hbm, ⟨16, _⟩ => ⟨S40000, .f32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S40000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S40000x128, .f32⟩
  | .hbm, ⟨33, _⟩ => ⟨S640000x1, .i32⟩
  | .hbm, ⟨34, _⟩ => ⟨S40000x128, .f32⟩
  | .hbm, ⟨35, _⟩ => ⟨S128x256, .f32⟩
  | .hbm, ⟨36, _⟩ => ⟨S128x256, .bf16⟩
  | .hbm, ⟨37, _⟩ => ⟨S128x256, .f32⟩
  | .hbm, ⟨38, _⟩ => ⟨S128x256, .bf16⟩
  | .hbm, ⟨39, _⟩ => ⟨S1x256, .f32⟩
  | .hbm, ⟨40, _⟩ => ⟨S40000x256, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x256, .f32⟩
  | .hbm, ⟨50, _⟩ => ⟨S_, .f32⟩
  | .hbm, ⟨51, _⟩ => ⟨S40000x256, .f32⟩
  | .hbm, ⟨52, _⟩ => ⟨S640000x1, .i32⟩
  | .hbm, ⟨53, _⟩ => ⟨S40000x256, .f32⟩
  | .hbm, ⟨54, _⟩ => ⟨S256x256, .f32⟩
  | .hbm, ⟨55, _⟩ => ⟨S256x256, .bf16⟩
  | .hbm, ⟨56, _⟩ => ⟨S256x256, .f32⟩
  | .hbm, ⟨57, _⟩ => ⟨S256x256, .bf16⟩
  | .hbm, ⟨58, _⟩ => ⟨S1x256, .f32⟩
  | .hbm, ⟨59, _⟩ => ⟨S40000x256, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x256, .f32⟩
  | .hbm, ⟨69, _⟩ => ⟨S_, .f32⟩
  | .hbm, ⟨70, _⟩ => ⟨S40000x256, .f32⟩
  | .hbm, ⟨71, _⟩ => ⟨S640000x1, .i32⟩
  | .hbm, ⟨72, _⟩ => ⟨S40000x256, .f32⟩
  | .hbm, ⟨73, _⟩ => ⟨S256x47, .f32⟩
  | .hbm, ⟨74, _⟩ => ⟨S256x47, .bf16⟩
  | .hbm, ⟨75, _⟩ => ⟨S256x47, .f32⟩
  | .hbm, ⟨76, _⟩ => ⟨S256x47, .bf16⟩
  | .hbm, ⟨77, _⟩ => ⟨S1x47, .f32⟩
  | .hbm, ⟨78, _⟩ => ⟨S40000x47, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .bf16⟩
  | .local _ .vmem, ⟨18, _⟩ => ⟨S256x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S256x47, .bf16⟩
  | .local _ .vmem, ⟨29, _⟩ => ⟨S256x47, .bf16⟩
  | .local _ .vmem, ⟨30, _⟩ => ⟨S1x47, .f32⟩
  | .local _ .vmem, ⟨31, _⟩ => ⟨S2000x47, .f32⟩
  | .local _ .vmem, ⟨32, _⟩ => ⟨S2000x47, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S40000x128 : S_.BroadcastsInDim S40000x128 (![] : Fin 0 → Fin S40000x128.rank)
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S40000x256 : S_.BroadcastsInDim S40000x256 (![] : Fin 0 → Fin S40000x256.rank)
  slices_S512x256_S256x256_0_0 : S512x256.Slices ![0, 0] S256x256
  slices_S512x256_S256x256_256_0 : S512x256.Slices ![256, 0] S256x256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S512x47_S256x47_0_0 : S512x47.Slices ![0, 0] S256x47
  slices_S512x47_S256x47_256_0 : S512x47.Slices ![256, 0] S256x47
  shapeCasts_S47_S1x47 : S47.ShapeCasts S1x47
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2000x47 : S1x47.Broadcasts S2000x47
  inb_S2000x47_S2000x47_0_0 : ∀ a, (![0, 0] : Fin 2 → Nat) a + S2000x47.size a ≤ S2000x47.size a
  h_S2000x47 : 0 < S2000x47.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x256_S2000x256_1_0_0_1_n_n_wf : DotDims.WF S2000x128 S128x256 S2000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S2000x256_S256x256_S2000x256_1_0_0_1_n_n_wf : DotDims.WF S2000x256 S256x256 S2000x256 [1] [0] [0] [1] [] []
  dot_S2000x256_S256x47_S2000x47_1_0_0_1_n_n_wf : DotDims.WF S2000x256 S256x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S40000x1.size a
  hwx0_2 : ∀ i : grid0.Coords, EltTy.bits .f32 = 32 ∨ (Rect.block (s := S40000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S40000x256.size a
  hwx0_6 : ∀ i : grid0.Coords, EltTy.bits .f32 = 32 ∨ (Rect.block (s := S40000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .f32 = 32 ∨ (Rect.block (s := S40000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S40000x256.size a
  hwx1_6 : ∀ i : grid1.Coords, EltTy.bits .f32 = 32 ∨ (Rect.block (s := S40000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S40000x256.size a
  hwx2_1 : ∀ i : grid2.Coords, EltTy.bits .f32 = 32 ∨ (Rect.block (s := S40000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S40000x1.size a
  hwx2_2 : ∀ i : grid2.Coords, EltTy.bits .f32 = 32 ∨ (Rect.block (s := S40000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .bf16 = 32 ∨ (Rect.block (s := S256x47) S256x47.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x47.size a ≤ S1x47.size a
  hwx2_5 : ∀ i : grid2.Coords, EltTy.bits .f32 = 32 ∨ (Rect.block (s := S1x47) S1x47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x47.size a ≤ S40000x47.size a
  hwx2_6 : ∀ i : grid2.Coords, EltTy.bits .f32 = 32 ∨ (Rect.block (s := S40000x47) S2000x47.size (cc2_transform_6 i) (hinb2_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x47_S2000x47_1_0_0_1_n_n : DotDims S2000x256 S256x47 S2000x47 where
  lhsContracting := [1]
  rhsContracting := [0]
  lhsNonContracting := [0]
  rhsNonContracting := [1]
  lhsBatch := []
  rhsBatch := []
  wf := dot_S2000x256_S256x47_S2000x47_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S2000x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S256x256 : Shape := ⟨2, ![256, 256]⟩
abbrev S256 : Shape := ⟨1, ![256]⟩
abbrev S512x256 : Shape := ⟨2, ![512, 256]⟩
abbrev S512x47 : Shape := ⟨2, ![512, 47]⟩
abbrev S47 : Shape := ⟨1, ![47]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S40000x256 : Shape := ⟨2, ![40000, 256]⟩
abbrev S1x256 : Shape := ⟨2, ![1, 256]⟩
abbrev S640000x256 : Shape := ⟨2, ![640000, 256]⟩
abbrev S40000x512 : Shape := ⟨2, ![40000, 512]⟩
abbrev S40000x47 : Shape := ⟨2, ![40000, 47]⟩
abbrev S1x47 : Shape := ⟨2, ![1, 47]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S256x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x47, .f32⟩
  | .hbm, ⟨6, _⟩ => ⟨S47, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S40000x256, .f32⟩
  | .hbm, ⟨35, _⟩ => ⟨S40000x256, .f32⟩
  | .hbm, ⟨36, _⟩ => ⟨S1x256, .f32⟩
  | .hbm, ⟨37, _⟩ => ⟨S40000x256, .f32⟩
  | .hbm, ⟨38, _⟩ => ⟨S40000x256, .f32⟩
  | .hbm, ⟨39, _⟩ => ⟨S_, .f32⟩
  | .hbm, ⟨40, _⟩ => ⟨S40000x256, .f32⟩
  | .hbm, ⟨41, _⟩ => ⟨S40000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S40000x256, .f32⟩
  | .hbm, ⟨53, _⟩ => ⟨S640000x1, .i32⟩
  | .hbm, ⟨54, _⟩ => ⟨S40000x256, .f32⟩
  | .hbm, ⟨55, _⟩ => ⟨S_, .f32⟩
  | .hbm, ⟨56, _⟩ => ⟨S640000, .f32⟩
  | .hbm, ⟨57, _⟩ => ⟨S_, .f32⟩
  | .hbm, ⟨58, _⟩ => ⟨S40000, .f32⟩
  | .hbm, ⟨59, _⟩ => ⟨S640000x1, .i32⟩
  | .hbm, ⟨60, _⟩ => ⟨S40000, .f32⟩
  | .hbm, ⟨61, _⟩ => ⟨S_, .f32⟩
  | .hbm, ⟨62, _⟩ => ⟨S40000, .f32⟩
  | .hbm, ⟨63, _⟩ => ⟨S40000, .f32⟩
  | .hbm, ⟨64, _⟩ => ⟨S40000x1, .f32⟩
  | .hbm, ⟨65, _⟩ => ⟨S40000x256, .f32⟩
  | .hbm, ⟨66, _⟩ => ⟨S40000x256, .f32⟩
  | .hbm, ⟨67, _⟩ => ⟨S40000x512, .f32⟩
  | .hbm, ⟨68, _⟩ => ⟨S40000x256, .f32⟩
  | .hbm, ⟨69, _⟩ => ⟨S1x256, .f32⟩
  | .hbm, ⟨70, _⟩ => ⟨S40000x256, .f32⟩
  | .hbm, ⟨71, _⟩ => ⟨S40000x256, .f32⟩
  | .hbm, ⟨72, _⟩ => ⟨S_, .f32⟩
  | .hbm, ⟨73, _⟩ => ⟨S40000x256, .f32⟩
  | .hbm, ⟨74, _⟩ => ⟨S40000x256, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S640000x256, .f32⟩
  | .hbm, ⟨84, _⟩ => ⟨S_, .f32⟩
  | .hbm, ⟨85, _⟩ => ⟨S40000x256, .f32⟩
  | .hbm, ⟨86, _⟩ => ⟨S640000x1, .i32⟩
  | .hbm, ⟨87, _⟩ => ⟨S40000x256, .f32⟩
  | .hbm, ⟨88, _⟩ => ⟨S_, .f32⟩
  | .hbm, ⟨89, _⟩ => ⟨S640000, .f32⟩
  | .hbm, ⟨90, _⟩ => ⟨S_, .f32⟩
  | .hbm, ⟨91, _⟩ => ⟨S40000, .f32⟩
  | .hbm, ⟨92, _⟩ => ⟨S640000x1, .i32⟩
  | .hbm, ⟨93, _⟩ => ⟨S40000, .f32⟩
  | .hbm, ⟨94, _⟩ => ⟨S_, .f32⟩
  | .hbm, ⟨95, _⟩ => ⟨S40000, .f32⟩
  | .hbm, ⟨96, _⟩ => ⟨S40000, .f32⟩
  | .hbm, ⟨97, _⟩ => ⟨S40000x1, .f32⟩
  | .hbm, ⟨98, _⟩ => ⟨S40000x256, .f32⟩
  | .hbm, ⟨99, _⟩ => ⟨S40000x256, .f32⟩
  | .hbm, ⟨100, _⟩ => ⟨S40000x512, .f32⟩
  | .hbm, ⟨101, _⟩ => ⟨S40000x47, .f32⟩
  | .hbm, ⟨102, _⟩ => ⟨S1x47, .f32⟩
  | .hbm, ⟨103, _⟩ => ⟨S40000x47, .f32⟩
  | .hbm, ⟨104, _⟩ => ⟨S40000x47, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S40000x1_S40000x256_0_1 : S40000x1.BroadcastsInDim S40000x256 (![0, 1] : Fin 2 → Fin S40000x256.rank)
  concatenates_S40000x256_S40000x256_S40000x512_d1 : Shape.Concatenates [S40000x256, S40000x256] S40000x512 1
  bcast_S47_S1x47_1 : S47.BroadcastsInDim S1x47 (![1] : Fin 1 → Fin S1x47.rank)
  bcast_S1x47_S40000x47_0_1 : S1x47.BroadcastsInDim S40000x47 (![0, 1] : Fin 2 → Fin S40000x47.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x256_S40000x256_1_0_0_1_n_n_wf : DotDims.WF S40000x256 S256x256 S40000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x512_S512x256_S40000x256_1_0_0_1_n_n_wf : DotDims.WF S40000x512 S512x256 S40000x256 [1] [0] [0] [1] [] []
  dot_S40000x512_S512x47_S40000x47_1_0_0_1_n_n_wf : DotDims.WF S40000x512 S512x47 S40000x47 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x512_S512x256_S40000x256_1_0_0_1_n_n : DotDims S40000x512 S512x256 S40000x256 where
  lhsContracting := [1]
  rhsContracting := [0]
  lhsNonContracting := [0]
  rhsNonContracting := [1]
  lhsBatch := []
  rhsBatch := []
  wf := dot_S40000x512_S512x256_S40000x256_1_0_0_1_n_n_wf
def dot_S40000x512_S512x47_S40000x47_1_0_0_1_n_n : DotDims S40000x512 S512x47 S40000x47 where
  lhsContracting := [1]
  rhsContracting := [0]
  lhsNonContracting := [0]
  rhsNonContracting := [1]
  lhsBatch := []
  rhsBatch := []
  wf := dot_S40000x512_S512x47_S40000x47_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.LibSageMean.lean ====
/-
  One layer of a mean-aggregating graph network read at an entry (general lemmas: nothing here depends on a program; any
  sizes).

  For node features h : [A, K], neighbour sums ms : [A, K], a column inv : [A, 1] of reciprocal degrees, two weight
  matrices wa, wb : [K, C] and a one-row bias b : [1, C], the layer's entry (p, q) is

      ( sum_k h[p, k] * wa[k, q]  +  sum_k (ms[p, k] * inv[p, 0]) * wb[k, q] )  +  b[0, q],

  and the rectified layer is its maximum with zero.  Two programs spell it: a kernel (two matrix-unit products into zero
  accumulators over operands narrowed to bf16, the column and the bias row broadcast, an optional maximum with a splat
  zero), and a host program (the features and the divided sums joined along the columns, one product with the stacked
  weight matrix [K + K, C], a broadcast bias added).  At the ideal values narrowing is the identity, the join followed by
  the product is the sum of the two products, and neither step uses finiteness.
-/
import Mathlib.Algebra.BigOperators.Fin
import Idealize.ShloMosaic.Lib.ValueIdx
import Idealize.ShloMosaic.Lib.IdealHost
import Idealize.ShloMosaic.Lib.Pipeline.Value
import Idealize.ShloMosaic.PureOps.Ideal.Laws
import proofs.«139259_j6536940224561_1_alg».proof.Proof.LibMatmul
import proofs.«139259_j6536940224561_1_alg».proof.Proof.LibColBroadcast

noncomputable section

namespace Cert.Sage

open Idealize.ShloMosaic Idealize.ShloMosaic.ValueIdx

variable {A K C : Nat}

/-- The layer before the rectifier, at entry (p, q). -/
def linAt (h ms : (⟨2, ![A, K]⟩ : Shape).Idx → EReal) (inv : (⟨2, ![A, 1]⟩ : Shape).Idx → EReal)
    (wa wb : (⟨2, ![K, C]⟩ : Shape).Idx → EReal) (b : (⟨2, ![1, C]⟩ : Shape).Idx → EReal) (p : Fin A) (q : Fin C) : EReal :=
  (∑ k : Fin K, h (ix2 p k) * wa (ix2 k q) + ∑ k : Fin K, (ms (ix2 p k) * inv (ix2 p (0 : Fin 1))) * wb (ix2 k q))
    + b (ix2 (0 : Fin 1) q)

/-- The layer before the rectifier, as an array. -/
def lin (h ms : (⟨2, ![A, K]⟩ : Shape).Idx → EReal) (inv : (⟨2, ![A, 1]⟩ : Shape).Idx → EReal)
    (wa wb : (⟨2, ![K, C]⟩ : Shape).Idx → EReal) (b : (⟨2, ![1, C]⟩ : Shape).Idx → EReal) :
    (⟨2, ![A, C]⟩ : Shape).Idx → EReal :=
  fun i => linAt h ms inv wa wb b (i 0) (i 1)

/-- The rectified layer, as an array. -/
def act (h ms : (⟨2, ![A, K]⟩ : Shape).Idx → EReal) (inv : (⟨2, ![A, 1]⟩ : Shape).Idx → EReal)
    (wa wb : (⟨2, ![K, C]⟩ : Shape).Idx → EReal) (b : (⟨2, ![1, C]⟩ : Shape).Idx → EReal) :
    (⟨2, ![A, C]⟩ : Shape).Idx → EReal :=
  fun i => max (linAt h ms inv wa wb b (i 0) (i 1)) 0

theorem lin_apply (h ms : (⟨2, ![A, K]⟩ : Shape).Idx → EReal) (inv : (⟨2, ![A, 1]⟩ : Shape).Idx → EReal)
    (wa wb : (⟨2, ![K, C]⟩ : Shape).Idx → EReal) (b : (⟨2, ![1, C]⟩ : Shape).Idx → EReal) (p : Fin A) (q : Fin C) :
    lin h ms inv wa wb b (ix2 p q) = linAt h ms inv wa wb b p q := rfl

theorem act_apply (h ms : (⟨2, ![A, K]⟩ : Shape).Idx → EReal) (inv : (⟨2, ![A, 1]⟩ : Shape).Idx → EReal)
    (wa wb : (⟨2, ![K, C]⟩ : Shape).Idx → EReal) (b : (⟨2, ![1, C]⟩ : Shape).Idx → EReal) (p : Fin A) (q : Fin C) :
    act h ms inv wa wb b (ix2 p q) = max (linAt h ms inv wa wb b p q) 0 := rfl

/-- An entry of the layer depends on one row of the features, of the sums and of the column only: two sets of operands
    whose rows p (of A rows) and p' (of A' rows) agree give the same entry. -/
theorem linAt_congr {A' : Nat} (h ms : (⟨2, ![A, K]⟩ : Shape).Idx → EReal) (inv : (⟨2, ![A, 1]⟩ : Shape).Idx → EReal)
    (h' ms' : (⟨2, ![A', K]⟩ : Shape).Idx → EReal) (inv' : (⟨2, ![A', 1]⟩ : Shape).Idx → EReal)
    (wa wb : (⟨2, ![K, C]⟩ : Shape).Idx → EReal) (b : (⟨2, ![1, C]⟩ : Shape).Idx → EReal) (p : Fin A) (p' : Fin A') (q : Fin C)
    (eh : ∀ k : Fin K, h (ix2 p k) = h' (ix2 p' k)) (em : ∀ k : Fin K, ms (ix2 p k) = ms' (ix2 p' k))
    (ei : inv (ix2 p (0 : Fin 1)) = inv' (ix2 p' (0 : Fin 1))) :
    linAt h ms inv wa wb b p q = linAt h' ms' inv' wa wb b p' q := by
  unfold linAt
  rw [ei]
  congr 2
  · exact Finset.sum_congr rfl fun k _ => by rw [eh k]
  · exact Finset.sum_congr rfl fun k _ => by rw [em k]

/-- A one-row matrix [1, C] broadcast down A rows, at (p, q), is the row at (0, q). -/
theorem bcastRowMat_apply {α : Type} (b : (⟨2, ![1, C]⟩ : Shape).Idx → α)
    (hb : (⟨2, ![1, C]⟩ : Shape).Broadcasts ⟨2, ![A, C]⟩) (p : Fin A) (q : Fin C) :
    broadcastTo ⟨2, ![A, C]⟩ b hb (ix2 p q) = b (ix2 (0 : Fin 1) q) := by
  refine broadcastTo_apply b hb (ix2 p q) (ix2 (0 : Fin 1) q) ?_
  intro a
  match a with
  | ⟨0, _⟩ => simp
  | ⟨1, _⟩ =>
    show q.val = if C = 1 then 0 else q.val
    split
    · have := q.isLt; omega
    · rfl

/-- The kernel's spelling without the rectifier, at entry (p, q). -/
theorem kernel_lin_apply (h ms : FVec Ideal ⟨2, ![A, K]⟩ .f32) (inv : FVec Ideal ⟨2, ![A, 1]⟩ .f32)
    (wa wb : FVec Ideal ⟨2, ![K, C]⟩ .bf16) (b : FVec Ideal ⟨2, ![1, C]⟩ .f32)
    (hbi : (⟨2, ![A, 1]⟩ : Shape).Broadcasts ⟨2, ![A, K]⟩) (hbb : (⟨2, ![1, C]⟩ : Shape).Broadcasts ⟨2, ![A, C]⟩)
    (hlt : FTy.bits .bf16 < FTy.bits .f32) (p : Fin A) (q : Fin C) :
    addf (addf (matmul (DotDims.plain A K C) none (truncf .bf16 h hlt) wa (constant ⟨2, ![A, C]⟩ .f32 0x00000000#32))
            (matmul (DotDims.plain A K C) none (truncf .bf16 (mulf ms (broadcastTo ⟨2, ![A, K]⟩ inv hbi)) hlt) wb
              (constant ⟨2, ![A, C]⟩ .f32 0x00000000#32)))
        (broadcastTo ⟨2, ![A, C]⟩ b hbb) (ix2 p q)
      = linAt h ms inv wa wb b p q := by
  rw [addf_apply, addf_apply]
  simp only [matmul]
  rw [Cert.Lib.Matmul.matmul_zero_apply, Cert.Lib.Matmul.matmul_zero_apply, bcastRowMat_apply]
  unfold linAt
  simp only [truncf_apply, mulf_apply, Cert.Lib.ColBroadcast.bcastColMat_apply]

/-- The kernel's spelling with the rectifier, at entry (p, q). -/
theorem kernel_act_apply (h ms : FVec Ideal ⟨2, ![A, K]⟩ .f32) (inv : FVec Ideal ⟨2, ![A, 1]⟩ .f32)
    (wa wb : FVec Ideal ⟨2, ![K, C]⟩ .bf16) (b : FVec Ideal ⟨2, ![1, C]⟩ .f32)
    (hbi : (⟨2, ![A, 1]⟩ : Shape).Broadcasts ⟨2, ![A, K]⟩) (hbb : (⟨2, ![1, C]⟩ : Shape).Broadcasts ⟨2, ![A, C]⟩)
    (hlt : FTy.bits .bf16 < FTy.bits .f32) (p : Fin A) (q : Fin C) :
    maximumf
        (addf (addf (matmul (DotDims.plain A K C) none (truncf .bf16 h hlt) wa (constant ⟨2, ![A, C]⟩ .f32 0x00000000#32))
            (matmul (DotDims.plain A K C) none (truncf .bf16 (mulf ms (broadcastTo ⟨2, ![A, K]⟩ inv hbi)) hlt) wb
              (constant ⟨2, ![A, C]⟩ .f32 0x00000000#32)))
          (broadcastTo ⟨2, ![A, C]⟩ b hbb))
        (broadcast ⟨2, ![A, C]⟩ (Scalar.ofBits (F := Ideal) .f32 0x00000000#32)) (ix2 p q)
      = max (linAt h ms inv wa wb b p q) 0 := by
  rw [maximumf_apply, broadcast_apply, kernel_lin_apply]
  show max _ (Ideal.ofBits .f32 0x00000000#32) = _
  rw [Ideal.ofBits_zero_f32]

/-- The host's spelling before the rectifier, at entry (p, q): the features and the divided sums joined along the
    columns, times the stacked weights, plus a bias array; the K + K products split into the first K and the last K. -/
theorem host_lin_apply {K2 : Nat} (hK2 : K2 = K + K) (h ms den : FVec Ideal ⟨2, ![A, K]⟩ .f32)
    (W : FVec Ideal ⟨2, ![K2, C]⟩ .f32) (bb : FVec Ideal ⟨2, ![A, C]⟩ .f32)
    (hc : Shape.Concatenates [(⟨2, ![A, K]⟩ : Shape), (⟨2, ![A, K]⟩ : Shape)] ⟨2, ![A, K2]⟩ 1) (p : Fin A) (q : Fin C) :
    addf (Host.dotGeneral (DotDims.plain A K2 C) none
          (concatenate ⟨2, ![A, K2]⟩ 1 [⟨⟨2, ![A, K]⟩, h⟩, ⟨⟨2, ![A, K]⟩, Host.divf ms den⟩] hc) W) bb (ix2 p q)
      = (∑ k : Fin K, h (ix2 p k) * W (ix2 (⟨k.val, by omega⟩ : Fin K2) q)
          + ∑ k : Fin K, Ideal.div (ms (ix2 p k)) (den (ix2 p k)) * W (ix2 (⟨K + k.val, by omega⟩ : Fin K2) q))
        + bb (ix2 p q) := by
  subst hK2
  rw [addf_apply]
  simp only [Host.dotGeneral]
  rw [Cert.Lib.Matmul.dotGeneral_apply, Fin.sum_univ_add]
  congr 2
  · refine Finset.sum_congr rfl fun k _ => ?_
    rw [concatenate_pair_apply_left (1 : Fin 2) h (Host.divf ms den) hc (ix2 p (Fin.castAdd K k)) rfl (ix2 p k)
      (fun b => by match b with | ⟨0, _⟩ => rfl | ⟨1, _⟩ => rfl)]
    rfl
  · refine Finset.sum_congr rfl fun k _ => ?_
    rw [concatenate_pair_apply_right (1 : Fin 2) h (Host.divf ms den) hc (ix2 p (Fin.natAdd K k)) rfl rfl (ix2 p k)
      (fun b hb => by match b with | ⟨0, _⟩ => rfl | ⟨1, _⟩ => exact absurd rfl hb)
      (by show k.val + K = K + k.val; omega), hostDivf_apply]
    rfl

end Cert.Sage

end
-- ==== Proof.Region0.lean ====
/-
  What the first layer's kernel region leaves in its output array, as one function of the arrays it finds.

  The region runs over 20 grid points; point t reads rows 2000 t … 2000 t + 1999 of the features, of the neighbour
  sums and of the reciprocal-degree column, the two weight matrices and the bias row whole, and writes rows
  2000 t … 2000 t + 1999 of the result: entry (p, q) of the block is the rectified layer's entry at row p of the block's
  operands, which is the entry at row 2000 t + p of the whole arrays (an entry depends on one row only).  The 20 blocks
  tile the 40000 rows, so the array ends at the rectified layer of the whole arrays.
-/
import proofs.«139259_j6536940224561_1_alg».proof.Proof.Gen.KernelIdeal.Frame
import proofs.«139259_j6536940224561_1_alg».proof.Proof.LibSageMean
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's last step in this region: the rectifier. -/
abbrev fin (z : EReal) : EReal := max z 0

/-- The body's stored value at entry (p, q) of the block is the rectified layer of the loaded blocks at (p, q). -/
theorem pay_apply (x0 x1 : Vec Ideal S2000x128 .f32) (x2 : Vec Ideal S2000x1 .f32) (x3 x4 : Vec Ideal S128x256 .bf16)
    (x5 : Vec Ideal S1x256 .f32) (p : Fin 2000) (q : Fin 256) :
    k0_pay1 x0 x1 x2 x3 x4 x5 (ix2 p q) = fin (Cert.Sage.linAt x0 x1 x2 x3 x4 x5 p q) := by
  unfold k0_pay1
  simp only [shapeCast_self]
  exact Cert.Sage.kernel_act_apply x0 x1 x2 x3 x4 x5 _ _ _ p q

/-- Entry (p, q) of a block whose operands are row r of the whole arrays (and the weights and the bias whole) is entry
    (r, q) of the rectified layer of the whole arrays. -/
theorem block_entry (a0 a1 : S40000x128.Idx → EReal) (a2 : S40000x1.Idx → EReal) (a3 a4 : S128x256.Idx → EReal)
    (a5 : S1x256.Idx → EReal) (x0 x1 : Vec Ideal S2000x128 .f32) (x2 : Vec Ideal S2000x1 .f32)
    (x3 x4 : Vec Ideal S128x256 .bf16) (x5 : Vec Ideal S1x256 .f32) (r : Fin 40000) (p : Fin 2000) (q : Fin 256)
    (e0 : ∀ k : Fin 128, x0 (ix2 p k) = a0 (ix2 r k)) (e1 : ∀ k : Fin 128, x1 (ix2 p k) = a1 (ix2 r k))
    (e2 : x2 (ix2 p (0 : Fin 1)) = a2 (ix2 r (0 : Fin 1))) (e3 : x3 = a3) (e4 : x4 = a4) (e5 : x5 = a5) :
    k0_pay1 x0 x1 x2 x3 x4 x5 (ix2 p q) = Cert.Sage.act a0 a1 a2 a3 a4 a5 (ix2 r q) := by
  rw [pay_apply, Cert.Sage.act_apply]
  subst e3 e4 e5
  exact congrArg fin (Cert.Sage.linAt_congr x0 x1 x2 a0 a1 a2 x3 x4 x5 p r q e0 e1 e2)

/-- The printed index maps, decided over the grid: the row blocks of the three row-tiled inputs move with the output's,
    the output's row block stays below 20, every other block index is zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every row block is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-- What point t writes back is block t of the rectified layer of the arrays as the region finds them. -/
theorem flushed_eq (c : Dev nD) (t : Fin cfg0.N) :
    (dat0 V c).flushed 6 t = ((cfg0.win 6).blk t).view.read (Elt Ideal)
      (Cert.Sage.act (V c main_arg0) (V c main_v18) (V c main_v8) (V c main_v20) (V c main_v22) (V c main_v23)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x256) hz, View.ld_unit_zero (S := S1x256) hz]
  obtain ⟨f00, f01, f10, f11, f20, f21, f30, f31, f40, f41, f50, f51, f60, f61⟩ := idx_facts t
  funext j
  have hj0 : (j 0).val < 2000 := (j 0).isLt
  have hj1 : (j 1).val < 256 := (j 1).isLt
  show k0_pay1 (iblk0 V c 0 t) (iblk0 V c 1 t) (iblk0 V c 2 t) (iblk0 V c 3 t) (iblk0 V c 4 t) (iblk0 V c 5 t) j
    = Cert.Sage.act (V c main_arg0) (V c main_v18) (V c main_v8) (V c main_v20) (V c main_v22) (V c main_v23)
        (((cfg0.win 6).blk t).view.emb j)
  have he : ((cfg0.win 6).blk t).view.emb j
      = ix2 (⟨win0_6.index t (0 : Fin 2) * 2000 + (j 0).val, by omega⟩ : Fin 40000) (⟨(j 1).val, hj1⟩ : Fin 256) := by
    funext a; apply Fin.ext
    match a with
    | ⟨0, _⟩ => show win0_6.index t (0 : Fin 2) * 2000 + 1 * (j 0).val = win0_6.index t (0 : Fin 2) * 2000 + (j 0).val; omega
    | ⟨1, _⟩ => show win0_6.index t (1 : Fin 2) * 256 + 1 * (j 1).val = (j 1).val; omega
  rw [he]
  refine (congrArg (k0_pay1 (iblk0 V c 0 t) (iblk0 V c 1 t) (iblk0 V c 2 t) (iblk0 V c 3 t) (iblk0 V c 4 t) (iblk0 V c 5 t))
    (eq_ix2 j)).trans ?_
  refine block_entry (V c main_arg0) (V c main_v18) (V c main_v8) (V c main_v20) (V c main_v22) (V c main_v23)
    (iblk0 V c 0 t) (iblk0 V c 1 t) (iblk0 V c 2 t) (iblk0 V c 3 t) (iblk0 V c 4 t) (iblk0 V c 5 t) _ (j 0) (j 1) ?_ ?_ ?_ ?_ ?_ ?_
  · intro k
    show V c main_arg0 (((cfg0.win 0).blk t).view.emb (ix2 (j 0) k)) = _
    refine congrArg (V c main_arg0) (funext fun a => Fin.ext ?_)
    have hk : k.val < 128 := k.isLt
    match a with
    | ⟨0, _⟩ => show win0_0.index t (0 : Fin 2) * 2000 + 1 * (j 0).val = win0_6.index t (0 : Fin 2) * 2000 + (j 0).val; omega
    | ⟨1, _⟩ => show win0_0.index t (1 : Fin 2) * 128 + 1 * k.val = k.val; omega
  · intro k
    show V c main_v18 (((cfg0.win 1).blk t).view.emb (ix2 (j 0) k)) = _
    refine congrArg (V c main_v18) (funext fun a => Fin.ext ?_)
    have hk : k.val < 128 := k.isLt
    match a with
    | ⟨0, _⟩ => show win0_1.index t (0 : Fin 2) * 2000 + 1 * (j 0).val = win0_6.index t (0 : Fin 2) * 2000 + (j 0).val; omega
    | ⟨1, _⟩ => show win0_1.index t (1 : Fin 2) * 128 + 1 * k.val = k.val; omega
  · show V c main_v8 (((cfg0.win 2).blk t).view.emb (ix2 (j 0) (0 : Fin 1))) = _
    refine congrArg (V c main_v8) (funext fun a => Fin.ext ?_)
    match a with
    | ⟨0, _⟩ => show win0_2.index t (0 : Fin 2) * 2000 + 1 * (j 0).val = win0_6.index t (0 : Fin 2) * 2000 + (j 0).val; omega
    | ⟨1, _⟩ => show win0_2.index t (1 : Fin 2) * 1 + 1 * 0 = 0; omega
  · funext y
    show V c main_v20 (((cfg0.win 3).blk t).view.emb y) = V c main_v20 y
    refine congrArg (V c main_v20) (funext fun a => Fin.ext ?_)
    match a with
    | ⟨0, _⟩ => show win0_3.index t (0 : Fin 2) * 128 + 1 * (y 0).val = (y 0).val; omega
    | ⟨1, _⟩ => show win0_3.index t (1 : Fin 2) * 256 + 1 * (y 1).val = (y 1).val; omega
  · funext y
    show V c main_v22 (((cfg0.win 4).blk t).view.emb y) = V c main_v22 y
    refine congrArg (V c main_v22) (funext fun a => Fin.ext ?_)
    match a with
    | ⟨0, _⟩ => show win0_4.index t (0 : Fin 2) * 128 + 1 * (y 0).val = (y 0).val; omega
    | ⟨1, _⟩ => show win0_4.index t (1 : Fin 2) * 256 + 1 * (y 1).val = (y 1).val; omega
  · funext y
    show V c main_v23 (((cfg0.win 5).blk t).view.emb y) = V c main_v23 y
    refine congrArg (V c main_v23) (funext fun a => Fin.ext ?_)
    match a with
    | ⟨0, _⟩ => show win0_5.index t (0 : Fin 2) * 1 + 1 * (y 0).val = (y 0).val; omega
    | ⟨1, _⟩ => show win0_5.index t (1 : Fin 2) * 256 + 1 * (y 1).val = (y 1).val; omega

/-- An index of the array is in point t's block iff each coordinate is in the block's range on its axis. -/
theorem mem_blk (t : Fin cfg0.N) (i : S40000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v24).slice (win0_6.rect t)).set ↔ _
  rw [View.set_slice_whole, Rect.mem_set_unit]
  exact Iff.rfl

/-- Every index of the array is in some point's block: row r is in block r / 2000. -/
theorem cover (i : S40000x256.Idx) :
    ∃ t : Fin cfg0.N, (cfg0.win 6).flush t = true ∧ i ∈ ((cfg0.win 6).blk t).view.set := by
  have hi0 : (i 0).val < 40000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The output array after the region is the rectified layer of the arrays as the region finds them. -/
theorem final (c : Dev nD) :
    (dat0 V c).arrAt 6 cfg0.N
      = Cert.Sage.act (V c main_arg0) (V c main_v18) (V c main_v8) (V c main_v20) (V c main_v22) (V c main_v23) :=
  (dat0 V c).arrAt_eq_of_cover 6 _ (fun t _ => flushed_eq V c t) cover

end Cert.KernelIdeal.Region0

end
-- ==== Proof.Region1.lean ====
/-
  What the second layer's kernel region leaves in its output array, as one function of the arrays it finds.

  The region runs over 20 grid points; point t reads rows 2000 t … 2000 t + 1999 of the features, of the neighbour
  sums and of the reciprocal-degree column, the two weight matrices and the bias row whole, and writes rows
  2000 t … 2000 t + 1999 of the result: entry (p, q) of the block is the rectified layer's entry at row p of the block's
  operands, which is the entry at row 2000 t + p of the whole arrays (an entry depends on one row only).  The 20 blocks
  tile the 40000 rows, so the array ends at the rectified layer of the whole arrays.
-/
import proofs.«139259_j6536940224561_1_alg».proof.Proof.Gen.KernelIdeal.Frame
import proofs.«139259_j6536940224561_1_alg».proof.Proof.LibSageMean
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's last step in this region: the rectifier. -/
abbrev fin (z : EReal) : EReal := max z 0

/-- The body's stored value at entry (p, q) of the block is the rectified layer of the loaded blocks at (p, q). -/
theorem pay_apply (x0 x1 : Vec Ideal S2000x256 .f32) (x2 : Vec Ideal S2000x1 .f32) (x3 x4 : Vec Ideal S256x256 .bf16)
    (x5 : Vec Ideal S1x256 .f32) (p : Fin 2000) (q : Fin 256) :
    k1_pay1 x0 x1 x2 x3 x4 x5 (ix2 p q) = fin (Cert.Sage.linAt x0 x1 x2 x3 x4 x5 p q) := by
  unfold k1_pay1
  simp only [shapeCast_self]
  exact Cert.Sage.kernel_act_apply x0 x1 x2 x3 x4 x5 _ _ _ p q

/-- Entry (p, q) of a block whose operands are row r of the whole arrays (and the weights and the bias whole) is entry
    (r, q) of the rectified layer of the whole arrays. -/
theorem block_entry (a0 a1 : S40000x256.Idx → EReal) (a2 : S40000x1.Idx → EReal) (a3 a4 : S256x256.Idx → EReal)
    (a5 : S1x256.Idx → EReal) (x0 x1 : Vec Ideal S2000x256 .f32) (x2 : Vec Ideal S2000x1 .f32)
    (x3 x4 : Vec Ideal S256x256 .bf16) (x5 : Vec Ideal S1x256 .f32) (r : Fin 40000) (p : Fin 2000) (q : Fin 256)
    (e0 : ∀ k : Fin 256, x0 (ix2 p k) = a0 (ix2 r k)) (e1 : ∀ k : Fin 256, x1 (ix2 p k) = a1 (ix2 r k))
    (e2 : x2 (ix2 p (0 : Fin 1)) = a2 (ix2 r (0 : Fin 1))) (e3 : x3 = a3) (e4 : x4 = a4) (e5 : x5 = a5) :
    k1_pay1 x0 x1 x2 x3 x4 x5 (ix2 p q) = Cert.Sage.act a0 a1 a2 a3 a4 a5 (ix2 r q) := by
  rw [pay_apply, Cert.Sage.act_apply]
  subst e3 e4 e5
  exact congrArg fin (Cert.Sage.linAt_congr x0 x1 x2 a0 a1 a2 x3 x4 x5 p r q e0 e1 e2)

/-- The printed index maps, decided over the grid: the row blocks of the three row-tiled inputs move with the output's,
    the output's row block stays below 20, every other block index is zero. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every row block is some point's. -/
theorem idx_onto : ∀ q0 : Fin 20, ∃ t : Fin cfg1.N, win1_6.index t = ![q0.val, 0] :=
  (by decide +kernel : ∀ q0 : Fin 20, ∃ t : Fin grid1.N, win1_6.index t = ![q0.val, 0])

/-- What point t writes back is block t of the rectified layer of the arrays as the region finds them. -/
theorem flushed_eq (c : Dev nD) (t : Fin cfg1.N) :
    (dat1 V c).flushed 6 t = ((cfg1.win 6).blk t).view.read (Elt Ideal)
      (Cert.Sage.act (V c main_v24) (V c main_v34) (V c main_v8) (V c main_v36) (V c main_v38) (V c main_v39)) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz,
    View.ld_unit_zero (S := S256x256) hz, View.ld_unit_zero (S := S1x256) hz]
  obtain ⟨f00, f01, f10, f11, f20, f21, f30, f31, f40, f41, f50, f51, f60, f61⟩ := idx_facts t
  funext j
  have hj0 : (j 0).val < 2000 := (j 0).isLt
  have hj1 : (j 1).val < 256 := (j 1).isLt
  show k1_pay1 (iblk1 V c 0 t) (iblk1 V c 1 t) (iblk1 V c 2 t) (iblk1 V c 3 t) (iblk1 V c 4 t) (iblk1 V c 5 t) j
    = Cert.Sage.act (V c main_v24) (V c main_v34) (V c main_v8) (V c main_v36) (V c main_v38) (V c main_v39)
        (((cfg1.win 6).blk t).view.emb j)
  have he : ((cfg1.win 6).blk t).view.emb j
      = ix2 (⟨win1_6.index t (0 : Fin 2) * 2000 + (j 0).val, by omega⟩ : Fin 40000) (⟨(j 1).val, hj1⟩ : Fin 256) := by
    funext a; apply Fin.ext
    match a with
    | ⟨0, _⟩ => show win1_6.index t (0 : Fin 2) * 2000 + 1 * (j 0).val = win1_6.index t (0 : Fin 2) * 2000 + (j 0).val; omega
    | ⟨1, _⟩ => show win1_6.index t (1 : Fin 2) * 256 + 1 * (j 1).val = (j 1).val; omega
  rw [he]
  refine (congrArg (k1_pay1 (iblk1 V c 0 t) (iblk1 V c 1 t) (iblk1 V c 2 t) (iblk1 V c 3 t) (iblk1 V c 4 t) (iblk1 V c 5 t))
    (eq_ix2 j)).trans ?_
  refine block_entry (V c main_v24) (V c main_v34) (V c main_v8) (V c main_v36) (V c main_v38) (V c main_v39)
    (iblk1 V c 0 t) (iblk1 V c 1 t) (iblk1 V c 2 t) (iblk1 V c 3 t) (iblk1 V c 4 t) (iblk1 V c 5 t) _ (j 0) (j 1) ?_ ?_ ?_ ?_ ?_ ?_
  · intro k
    show V c main_v24 (((cfg1.win 0).blk t).view.emb (ix2 (j 0) k)) = _
    refine congrArg (V c main_v24) (funext fun a => Fin.ext ?_)
    have hk : k.val < 256 := k.isLt
    match a with
    | ⟨0, _⟩ => show win1_0.index t (0 : Fin 2) * 2000 + 1 * (j 0).val = win1_6.index t (0 : Fin 2) * 2000 + (j 0).val; omega
    | ⟨1, _⟩ => show win1_0.index t (1 : Fin 2) * 256 + 1 * k.val = k.val; omega
  · intro k
    show V c main_v34 (((cfg1.win 1).blk t).view.emb (ix2 (j 0) k)) = _
    refine congrArg (V c main_v34) (funext fun a => Fin.ext ?_)
    have hk : k.val < 256 := k.isLt
    match a with
    | ⟨0, _⟩ => show win1_1.index t (0 : Fin 2) * 2000 + 1 * (j 0).val = win1_6.index t (0 : Fin 2) * 2000 + (j 0).val; omega
    | ⟨1, _⟩ => show win1_1.index t (1 : Fin 2) * 256 + 1 * k.val = k.val; omega
  · show V c main_v8 (((cfg1.win 2).blk t).view.emb (ix2 (j 0) (0 : Fin 1))) = _
    refine congrArg (V c main_v8) (funext fun a => Fin.ext ?_)
    match a with
    | ⟨0, _⟩ => show win1_2.index t (0 : Fin 2) * 2000 + 1 * (j 0).val = win1_6.index t (0 : Fin 2) * 2000 + (j 0).val; omega
    | ⟨1, _⟩ => show win1_2.index t (1 : Fin 2) * 1 + 1 * 0 = 0; omega
  · funext y
    show V c main_v36 (((cfg1.win 3).blk t).view.emb y) = V c main_v36 y
    refine congrArg (V c main_v36) (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  · funext y
    show V c main_v38 (((cfg1.win 4).blk t).view.emb y) = V c main_v38 y
    refine congrArg (V c main_v38) (funext fun a => Fin.ext ?_)
    match a with
    | ⟨0, _⟩ => show win1_4.index t (0 : Fin 2) * 256 + 1 * (y 0).val = (y 0).val; omega
    | ⟨1, _⟩ => show win1_4.index t (1 : Fin 2) * 256 + 1 * (y 1).val = (y 1).val; omega
  · funext y
    show V c main_v39 (((cfg1.win 5).blk t).view.emb y) = V c main_v39 y
    refine congrArg (V c main_v39) (funext fun a => Fin.ext ?_)
    match a with
    | ⟨0, _⟩ => show win1_5.index t (0 : Fin 2) * 1 + 1 * (y 0).val = (y 0).val; omega
    | ⟨1, _⟩ => show win1_5.index t (1 : Fin 2) * 256 + 1 * (y 1).val = (y 1).val; omega

/-- An index of the array is in point t's block iff each coordinate is in the block's range on its axis. -/
theorem mem_blk (t : Fin cfg1.N) (i : S40000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v40).slice (win1_6.rect t)).set ↔ _
  rw [View.set_slice_whole, Rect.mem_set_unit]
  exact Iff.rfl

/-- Every index of the array is in some point's block: row r is in block r / 2000. -/
theorem cover (i : S40000x256.Idx) :
    ∃ t : Fin cfg1.N, (cfg1.win 6).flush t = true ∧ i ∈ ((cfg1.win 6).blk t).view.set := by
  have hi0 : (i 0).val < 40000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The output array after the region is the rectified layer of the arrays as the region finds them. -/
theorem final (c : Dev nD) :
    (dat1 V c).arrAt 6 cfg1.N
      = Cert.Sage.act (V c main_v24) (V c main_v34) (V c main_v8) (V c main_v36) (V c main_v38) (V c main_v39) :=
  (dat1 V c).arrAt_eq_of_cover 6 _ (fun t _ => flushed_eq V c t) cover

end Cert.KernelIdeal.Region1

end
-- ==== Proof.Region2.lean ====
/-
  What the third layer's kernel region leaves in its output array, as one function of the arrays it finds.

  The region runs over 20 grid points; point t reads rows 2000 t … 2000 t + 1999 of the features, of the neighbour
  sums and of the reciprocal-degree column, the two weight matrices and the bias row whole, and writes rows
  2000 t … 2000 t + 1999 of the result: entry (p, q) of the block is the layer's entry at row p of the block's
  operands, which is the entry at row 2000 t + p of the whole arrays (an entry depends on one row only).  The 20 blocks
  tile the 40000 rows, so the array ends at the layer of the whole arrays.
-/
import proofs.«139259_j6536940224561_1_alg».proof.Proof.Gen.KernelIdeal.Frame
import proofs.«139259_j6536940224561_1_alg».proof.Proof.LibSageMean
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's last step in this region: none (the last layer is not rectified). -/
abbrev fin (z : EReal) : EReal := z

/-- The body's stored value at entry (p, q) of the block is the layer of the loaded blocks at (p, q). -/
theorem pay_apply (x0 x1 : Vec Ideal S2000x256 .f32) (x2 : Vec Ideal S2000x1 .f32) (x3 x4 : Vec Ideal S256x47 .bf16)
    (x5 : Vec Ideal S1x47 .f32) (p : Fin 2000) (q : Fin 47) :
    k2_pay1 x0 x1 x2 x3 x4 x5 (ix2 p q) = fin (Cert.Sage.linAt x0 x1 x2 x3 x4 x5 p q) := by
  unfold k2_pay1
  simp only [shapeCast_self]
  exact Cert.Sage.kernel_lin_apply x0 x1 x2 x3 x4 x5 _ _ _ p q

/-- Entry (p, q) of a block whose operands are row r of the whole arrays (and the weights and the bias whole) is entry
    (r, q) of the layer of the whole arrays. -/
theorem block_entry (a0 a1 : S40000x256.Idx → EReal) (a2 : S40000x1.Idx → EReal) (a3 a4 : S256x47.Idx → EReal)
    (a5 : S1x47.Idx → EReal) (x0 x1 : Vec Ideal S2000x256 .f32) (x2 : Vec Ideal S2000x1 .f32)
    (x3 x4 : Vec Ideal S256x47 .bf16) (x5 : Vec Ideal S1x47 .f32) (r : Fin 40000) (p : Fin 2000) (q : Fin 47)
    (e0 : ∀ k : Fin 256, x0 (ix2 p k) = a0 (ix2 r k)) (e1 : ∀ k : Fin 256, x1 (ix2 p k) = a1 (ix2 r k))
    (e2 : x2 (ix2 p (0 : Fin 1)) = a2 (ix2 r (0 : Fin 1))) (e3 : x3 = a3) (e4 : x4 = a4) (e5 : x5 = a5) :
    k2_pay1 x0 x1 x2 x3 x4 x5 (ix2 p q) = Cert.Sage.lin a0 a1 a2 a3 a4 a5 (ix2 r q) := by
  rw [pay_apply, Cert.Sage.lin_apply]
  subst e3 e4 e5
  exact congrArg fin (Cert.Sage.linAt_congr x0 x1 x2 a0 a1 a2 x3 x4 x5 p r q e0 e1 e2)

/-- The printed index maps, decided over the grid: the row blocks of the three row-tiled inputs move with the output's,
    the output's row block stays below 20, every other block index is zero. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every row block is some point's. -/
theorem idx_onto : ∀ q0 : Fin 20, ∃ t : Fin cfg2.N, win2_6.index t = ![q0.val, 0] :=
  (by decide +kernel : ∀ q0 : Fin 20, ∃ t : Fin grid2.N, win2_6.index t = ![q0.val, 0])

/-- What point t writes back is block t of the layer of the arrays as the region finds them. -/
theorem flushed_eq (c : Dev nD) (t : Fin cfg2.N) :
    (dat2 V c).flushed 6 t = ((cfg2.win 6).blk t).view.read (Elt Ideal)
      (Cert.Sage.lin (V c main_v40) (V c main_v50) (V c main_v8) (V c main_v52) (V c main_v54) (V c main_v55)) := by
  show (cfg2.win 6).cut (grid2.coords t) ((dat2 V c).after 6 t) = _
  rw [after2_6]
  unfold out2_6
  rw [View.canon_unit_zero hz]
  simp only [View.ld_unit_zero (S := S2000x256) hz, View.ld_unit_zero (S := S2000x1) hz,
    View.ld_unit_zero (S := S256x47) hz, View.ld_unit_zero (S := S1x47) hz]
  obtain ⟨f00, f01, f10, f11, f20, f21, f30, f31, f40, f41, f50, f51, f60, f61⟩ := idx_facts t
  funext j
  have hj0 : (j 0).val < 2000 := (j 0).isLt
  have hj1 : (j 1).val < 47 := (j 1).isLt
  show k2_pay1 (iblk2 V c 0 t) (iblk2 V c 1 t) (iblk2 V c 2 t) (iblk2 V c 3 t) (iblk2 V c 4 t) (iblk2 V c 5 t) j
    = Cert.Sage.lin (V c main_v40) (V c main_v50) (V c main_v8) (V c main_v52) (V c main_v54) (V c main_v55)
        (((cfg2.win 6).blk t).view.emb j)
  have he : ((cfg2.win 6).blk t).view.emb j
      = ix2 (⟨win2_6.index t (0 : Fin 2) * 2000 + (j 0).val, by omega⟩ : Fin 40000) (⟨(j 1).val, hj1⟩ : Fin 47) := by
    funext a; apply Fin.ext
    match a with
    | ⟨0, _⟩ => show win2_6.index t (0 : Fin 2) * 2000 + 1 * (j 0).val = win2_6.index t (0 : Fin 2) * 2000 + (j 0).val; omega
    | ⟨1, _⟩ => show win2_6.index t (1 : Fin 2) * 47 + 1 * (j 1).val = (j 1).val; omega
  rw [he]
  refine (congrArg (k2_pay1 (iblk2 V c 0 t) (iblk2 V c 1 t) (iblk2 V c 2 t) (iblk2 V c 3 t) (iblk2 V c 4 t) (iblk2 V c 5 t))
    (eq_ix2 j)).trans ?_
  refine block_entry (V c main_v40) (V c main_v50) (V c main_v8) (V c main_v52) (V c main_v54) (V c main_v55)
    (iblk2 V c 0 t) (iblk2 V c 1 t) (iblk2 V c 2 t) (iblk2 V c 3 t) (iblk2 V c 4 t) (iblk2 V c 5 t) _ (j 0) (j 1) ?_ ?_ ?_ ?_ ?_ ?_
  · intro k
    show V c main_v40 (((cfg2.win 0).blk t).view.emb (ix2 (j 0) k)) = _
    refine congrArg (V c main_v40) (funext fun a => Fin.ext ?_)
    have hk : k.val < 256 := k.isLt
    match a with
    | ⟨0, _⟩ => show win2_0.index t (0 : Fin 2) * 2000 + 1 * (j 0).val = win2_6.index t (0 : Fin 2) * 2000 + (j 0).val; omega
    | ⟨1, _⟩ => show win2_0.index t (1 : Fin 2) * 256 + 1 * k.val = k.val; omega
  · intro k
    show V c main_v50 (((cfg2.win 1).blk t).view.emb (ix2 (j 0) k)) = _
    refine congrArg (V c main_v50) (funext fun a => Fin.ext ?_)
    have hk : k.val < 256 := k.isLt
    match a with
    | ⟨0, _⟩ => show win2_1.index t (0 : Fin 2) * 2000 + 1 * (j 0).val = win2_6.index t (0 : Fin 2) * 2000 + (j 0).val; omega
    | ⟨1, _⟩ => show win2_1.index t (1 : Fin 2) * 256 + 1 * k.val = k.val; omega
  · show V c main_v8 (((cfg2.win 2).blk t).view.emb (ix2 (j 0) (0 : Fin 1))) = _
    refine congrArg (V c main_v8) (funext fun a => Fin.ext ?_)
    match a with
    | ⟨0, _⟩ => show win2_2.index t (0 : Fin 2) * 2000 + 1 * (j 0).val = win2_6.index t (0 : Fin 2) * 2000 + (j 0).val; omega
    | ⟨1, _⟩ => show win2_2.index t (1 : Fin 2) * 1 + 1 * 0 = 0; omega
  · funext y
    show V c main_v52 (((cfg2.win 3).blk t).view.emb y) = V c main_v52 y
    refine congrArg (V c main_v52) (funext fun a => Fin.ext ?_)
    match a with
    | ⟨0, _⟩ => show win2_3.index t (0 : Fin 2) * 256 + 1 * (y 0).val = (y 0).val; omega
    | ⟨1, _⟩ => show win2_3.index t (1 : Fin 2) * 47 + 1 * (y 1).val = (y 1).val; omega
  · funext y
    show V c main_v54 (((cfg2.win 4).blk t).view.emb y) = V c main_v54 y
    refine congrArg (V c main_v54) (funext fun a => Fin.ext ?_)
    match a with
    | ⟨0, _⟩ => show win2_4.index t (0 : Fin 2) * 256 + 1 * (y 0).val = (y 0).val; omega
    | ⟨1, _⟩ => show win2_4.index t (1 : Fin 2) * 47 + 1 * (y 1).val = (y 1).val; omega
  · funext y
    show V c main_v55 (((cfg2.win 5).blk t).view.emb y) = V c main_v55 y
    refine congrArg (V c main_v55) (funext fun a => Fin.ext ?_)
    match a with
    | ⟨0, _⟩ => show win2_5.index t (0 : Fin 2) * 1 + 1 * (y 0).val = (y 0).val; omega
    | ⟨1, _⟩ => show win2_5.index t (1 : Fin 2) * 47 + 1 * (y 1).val = (y 1).val; omega

/-- An index of the array is in point t's block iff each coordinate is in the block's range on its axis. -/
theorem mem_blk (t : Fin cfg2.N) (i : S40000x47.Idx) :
    i ∈ ((cfg2.win 6).blk t).view.set ↔ ∀ a : Fin 2, win2_6.index t a * S2000x47.size a ≤ (i a).val
      ∧ (i a).val < win2_6.index t a * S2000x47.size a + S2000x47.size a := by
  show i ∈ ((View.whole main_v56).slice (win2_6.rect t)).set ↔ _
  rw [View.set_slice_whole, Rect.mem_set_unit]
  exact Iff.rfl

/-- Every index of the array is in some point's block: row r is in block r / 2000. -/
theorem cover (i : S40000x47.Idx) :
    ∃ t : Fin cfg2.N, (cfg2.win 6).flush t = true ∧ i ∈ ((cfg2.win 6).blk t).view.set := by
  have hi0 : (i 0).val < 40000 := (i 0).isLt
  have hi1 : (i 1).val < 47 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 47 ≤ (i 1).val ∧ (i 1).val < win2_6.index t (1 : Fin 2) * 47 + 47; omega

/-- The output array after the region is the layer of the arrays as the region finds them. -/
theorem final (c : Dev nD) :
    (dat2 V c).arrAt 6 cfg2.N
      = Cert.Sage.lin (V c main_v40) (V c main_v50) (V c main_v8) (V c main_v52) (V c main_v54) (V c main_v55) :=
  (dat2 V c).arrAt_eq_of_cover 6 _ (fun t _ => flushed_eq V c t) cover

end Cert.KernelIdeal.Region2

end
-- ==== Proof.Net.lean ====
/-
  The three-layer mean-aggregating network as one function of the argument arrays.

  Every layer gathers the features of each edge's source node, adds them up at the edge's destination node, scales the
  sums by the reciprocal of the destination's in-degree (at least one), and applies the layer of LibSageMean.lean with
  the two halves of the layer's stacked weight matrix and its bias as one row; the first two layers are rectified.
  The gather, the scatter-add and the in-degree count are carried as the host operations themselves, never opened:
  both programs apply the same ones.
-/
import proofs.«139259_j6536940224561_1_alg».proof.KernelIdeal
import proofs.«139259_j6536940224561_1_alg».proof.Proof.Gen.KernelIdeal
import proofs.«139259_j6536940224561_1_alg».proof.Proof.LibSageMean

noncomputable section

namespace Cert.Net

open Cert.KernelIdeal Cert.KernelIdeal.Gen Idealize.ShloMosaic

/-- Each edge's source node as a one-column index array; a negative index counts from the end. -/
def srcIdx (x7 : (⟨S640000, .i32⟩ : BufTy).Contents (Elt Ideal)) : (⟨S640000x1, .i32⟩ : BufTy).Contents (Elt Ideal) :=
  broadcastInDim S640000x1 ![0] bcast_S640000_S640000x1_0
    (select (cmpi .slt x7 (broadcastInDim S640000 ![] bcast_S_S640000 (constantI S_ 32 0#32)))
      (addi x7 (broadcastInDim S640000 ![] bcast_S_S640000 (constantI S_ 32 40000#32))) x7)

/-- Each edge's destination node as a one-column index array. -/
def dstIdx (x8 : (⟨S640000, .i32⟩ : BufTy).Contents (Elt Ideal)) : (⟨S640000x1, .i32⟩ : BufTy).Contents (Elt Ideal) :=
  broadcastInDim S640000x1 ![0] bcast_S640000_S640000x1_0 x8

/-- The in-degree of every node: a one added at each edge's destination. -/
def deg (x8 : (⟨S640000, .i32⟩ : BufTy).Contents (Elt Ideal)) : (⟨S40000, .f32⟩ : BufTy).Contents (Elt Ideal) :=
  Host.scatterAdd (F := Ideal) scatter_S40000_S640000x1_S640000_n_0_0_1
    (broadcastInDim S40000 ![] bcast_S_S40000 (constant (F := Ideal) S_ .f32 0x00000000#32)) (dstIdx x8)
    (broadcastInDim S640000 ![] bcast_S_S640000 (constant (F := Ideal) S_ .f32 0x3F800000#32))

/-- The in-degree, at least one. -/
def degMax (x8 : (⟨S640000, .i32⟩ : BufTy).Contents (Elt Ideal)) : (⟨S40000, .f32⟩ : BufTy).Contents (Elt Ideal) :=
  maximumf (F := Ideal) (deg x8) (broadcastInDim S40000 ![] bcast_S_S40000 (constant (F := Ideal) S_ .f32 0x3F800000#32))

/-- The reciprocal in-degrees as a column. -/
def invdeg (x8 : (⟨S640000, .i32⟩ : BufTy).Contents (Elt Ideal)) : (⟨S40000x1, .f32⟩ : BufTy).Contents (Elt Ideal) :=
  shapeCast S40000x1
    (Host.divf (F := Ideal) (broadcastInDim S40000 ![] bcast_S_S40000 (constant (F := Ideal) S_ .f32 0x3F800000#32)) (degMax x8))
    shapeCasts_S40000_S40000x1

/-- The neighbour sums of 128-column features. -/
def agg128 (h : (⟨S40000x128, .f32⟩ : BufTy).Contents (Elt Ideal)) (x7 x8 : (⟨S640000, .i32⟩ : BufTy).Contents (Elt Ideal)) :
    (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32)) (dstIdx x8)
    (Host.gather gather_S40000x128_S640000x1_S640000x128_1_0_n_n_0_1_1128 h (srcIdx x7))

/-- The neighbour sums of 256-column features. -/
def agg256 (h : (⟨S40000x256, .f32⟩ : BufTy).Contents (Elt Ideal)) (x7 x8 : (⟨S640000, .i32⟩ : BufTy).Contents (Elt Ideal)) :
    (⟨S40000x256, .f32⟩ : BufTy).Contents (Elt Ideal) :=
  Host.scatterAdd (F := Ideal) scatter_S40000x256_S640000x1_S640000x256_1_0_0_1
    (broadcastInDim S40000x256 ![] bcast_S_S40000x256 (constant (F := Ideal) S_ .f32 0x00000000#32)) (dstIdx x8)
    (Host.gather gather_S40000x256_S640000x1_S640000x256_1_0_n_n_0_1_1256 h (srcIdx x7))

/-- The first layer's weights on the node's own features (rows 0 … 127 of the stacked matrix) and on the neighbour
    mean (rows 128 … 255), narrowed, and its bias as one row. -/
def wa1 (x1 : (⟨S256x256, .f32⟩ : BufTy).Contents (Elt Ideal)) : (⟨S128x256, .bf16⟩ : BufTy).Contents (Elt Ideal) :=
  truncf (F := Ideal) .bf16 (extractStridedSlice S128x256 ![0, 0] x1 slices_S256x256_S128x256_0_0) bitsLt_bf16_f32
def wb1 (x1 : (⟨S256x256, .f32⟩ : BufTy).Contents (Elt Ideal)) : (⟨S128x256, .bf16⟩ : BufTy).Contents (Elt Ideal) :=
  truncf (F := Ideal) .bf16 (extractStridedSlice S128x256 ![128, 0] x1 slices_S256x256_S128x256_128_0) bitsLt_bf16_f32
def br1 (x2 : (⟨S256, .f32⟩ : BufTy).Contents (Elt Ideal)) : (⟨S1x256, .f32⟩ : BufTy).Contents (Elt Ideal) :=
  shapeCast S1x256 x2 shapeCasts_S256_S1x256

/-- The second layer's. -/
def wa2 (x3 : (⟨S512x256, .f32⟩ : BufTy).Contents (Elt Ideal)) : (⟨S256x256, .bf16⟩ : BufTy).Contents (Elt Ideal) :=
  truncf (F := Ideal) .bf16 (extractStridedSlice S256x256 ![0, 0] x3 slices_S512x256_S256x256_0_0) bitsLt_bf16_f32
def wb2 (x3 : (⟨S512x256, .f32⟩ : BufTy).Contents (Elt Ideal)) : (⟨S256x256, .bf16⟩ : BufTy).Contents (Elt Ideal) :=
  truncf (F := Ideal) .bf16 (extractStridedSlice S256x256 ![256, 0] x3 slices_S512x256_S256x256_256_0) bitsLt_bf16_f32
def br2 (x4 : (⟨S256, .f32⟩ : BufTy).Contents (Elt Ideal)) : (⟨S1x256, .f32⟩ : BufTy).Contents (Elt Ideal) :=
  shapeCast S1x256 x4 shapeCasts_S256_S1x256

/-- The third layer's. -/
def wa3 (x5 : (⟨S512x47, .f32⟩ : BufTy).Contents (Elt Ideal)) : (⟨S256x47, .bf16⟩ : BufTy).Contents (Elt Ideal) :=
  truncf (F := Ideal) .bf16 (extractStridedSlice S256x47 ![0, 0] x5 slices_S512x47_S256x47_0_0) bitsLt_bf16_f32
def wb3 (x5 : (⟨S512x47, .f32⟩ : BufTy).Contents (Elt Ideal)) : (⟨S256x47, .bf16⟩ : BufTy).Contents (Elt Ideal) :=
  truncf (F := Ideal) .bf16 (extractStridedSlice S256x47 ![256, 0] x5 slices_S512x47_S256x47_256_0) bitsLt_bf16_f32
def br3 (x6 : (⟨S47, .f32⟩ : BufTy).Contents (Elt Ideal)) : (⟨S1x47, .f32⟩ : BufTy).Contents (Elt Ideal) :=
  shapeCast S1x47 x6 shapeCasts_S47_S1x47

/-- The first layer's output. -/
def h1 (x0 : (⟨S40000x128, .f32⟩ : BufTy).Contents (Elt Ideal)) (x1 : (⟨S256x256, .f32⟩ : BufTy).Contents (Elt Ideal))
    (x2 : (⟨S256, .f32⟩ : BufTy).Contents (Elt Ideal)) (x7 x8 : (⟨S640000, .i32⟩ : BufTy).Contents (Elt Ideal)) :
    (⟨S40000x256, .f32⟩ : BufTy).Contents (Elt Ideal) :=
  Cert.Sage.act x0 (agg128 x0 x7 x8) (invdeg x8) (wa1 x1) (wb1 x1) (br1 x2)

/-- One 256-to-256 rectified layer on features h. -/
def layer2 (h : (⟨S40000x256, .f32⟩ : BufTy).Contents (Elt Ideal)) (x3 : (⟨S512x256, .f32⟩ : BufTy).Contents (Elt Ideal))
    (x4 : (⟨S256, .f32⟩ : BufTy).Contents (Elt Ideal)) (x7 x8 : (⟨S640000, .i32⟩ : BufTy).Contents (Elt Ideal)) :
    (⟨S40000x256, .f32⟩ : BufTy).Contents (Elt Ideal) :=
  Cert.Sage.act h (agg256 h x7 x8) (invdeg x8) (wa2 x3) (wb2 x3) (br2 x4)

/-- The last, 256-to-47 layer on features h, not rectified. -/
def layer3 (h : (⟨S40000x256, .f32⟩ : BufTy).Contents (Elt Ideal)) (x5 : (⟨S512x47, .f32⟩ : BufTy).Contents (Elt Ideal))
    (x6 : (⟨S47, .f32⟩ : BufTy).Contents (Elt Ideal)) (x7 x8 : (⟨S640000, .i32⟩ : BufTy).Contents (Elt Ideal)) :
    (⟨S40000x47, .f32⟩ : BufTy).Contents (Elt Ideal) :=
  Cert.Sage.lin h (agg256 h x7 x8) (invdeg x8) (wa3 x5) (wb3 x5) (br3 x6)

/-- The network's result. -/
def out (x0 : (⟨S40000x128, .f32⟩ : BufTy).Contents (Elt Ideal)) (x1 : (⟨S256x256, .f32⟩ : BufTy).Contents (Elt Ideal))
    (x2 : (⟨S256, .f32⟩ : BufTy).Contents (Elt Ideal)) (x3 : (⟨S512x256, .f32⟩ : BufTy).Contents (Elt Ideal))
    (x4 : (⟨S256, .f32⟩ : BufTy).Contents (Elt Ideal)) (x5 : (⟨S512x47, .f32⟩ : BufTy).Contents (Elt Ideal))
    (x6 : (⟨S47, .f32⟩ : BufTy).Contents (Elt Ideal)) (x7 x8 : (⟨S640000, .i32⟩ : BufTy).Contents (Elt Ideal)) :
    (⟨S40000x47, .f32⟩ : BufTy).Contents (Elt Ideal) :=
  layer3 (layer2 (h1 x0 x1 x2 x7 x8) x3 x4 x7 x8) x5 x6 x7 x8

end Cert.Net

end
-- ==== Proof.KernelValue.lean ====
/-
  The kernel program's result buffer after the run, as the network of Net.lean of the argument arrays.

  The run's buffer contents are a fold through @main: a stretch of host operations, then a kernel region, three times.
  Each stretch is read operation by operation (its neighbour sums, reciprocal degrees, weight halves and bias row as
  functions of the buffers it starts from, every other buffer kept); each region leaves its output array at the layer
  of the arrays it finds (Region0 … Region2) and keeps the rest.  Walking the fold from the last boundary back to the
  launch memory gives the result as three layers of the arguments.
-/
import proofs.«139259_j6536940224561_1_alg».proof.Proof.Gen.KernelIdeal.Frame
import proofs.«139259_j6536940224561_1_alg».proof.Proof.Region0
import proofs.«139259_j6536940224561_1_alg».proof.Proof.Region1
import proofs.«139259_j6536940224561_1_alg».proof.Proof.Region2
import proofs.«139259_j6536940224561_1_alg».proof.Proof.Net
import Idealize.ShloMosaic.Lib.StableHlo.Run

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo

/-- A buffer that no operation of a stretch writes holds after the stretch what it held before: the stretch's list is
    opened and each operation's written buffer is another reference. -/
local macro "kept_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three stretches of host operations, from any contents -/

section Stretches
variable (Wv : Valuation τ sig (Elt Ideal))

-- a stretch of some thirty operations is read back one rewrite per operation and buffer
set_option maxHeartbeats 1600000

/-! ### Before the first region -/

theorem s0_v18 : StableHlo.after hostOps0 Wv (Proc.devRef .tc main_v18)
    = Cert.Net.agg128 (Wv (Proc.devRef .tc main_arg0)) (Wv (Proc.devRef .tc main_arg7)) (Wv (Proc.devRef .tc main_arg8)) := by
  after_results; rfl
theorem s0_v8 : StableHlo.after hostOps0 Wv (Proc.devRef .tc main_v8) = Cert.Net.invdeg (Wv (Proc.devRef .tc main_arg8)) := by
  after_results; rfl
theorem s0_v20 : StableHlo.after hostOps0 Wv (Proc.devRef .tc main_v20) = Cert.Net.wa1 (Wv (Proc.devRef .tc main_arg1)) := by
  after_results; rfl
theorem s0_v22 : StableHlo.after hostOps0 Wv (Proc.devRef .tc main_v22) = Cert.Net.wb1 (Wv (Proc.devRef .tc main_arg1)) := by
  after_results; rfl
theorem s0_v23 : StableHlo.after hostOps0 Wv (Proc.devRef .tc main_v23) = Cert.Net.br1 (Wv (Proc.devRef .tc main_arg2)) := by
  after_results; rfl
theorem s0_arg0 : StableHlo.after hostOps0 Wv (Proc.devRef .tc main_arg0) = Wv (Proc.devRef .tc main_arg0) := by kept_through hostOps0
theorem s0_arg3 : StableHlo.after hostOps0 Wv (Proc.devRef .tc main_arg3) = Wv (Proc.devRef .tc main_arg3) := by kept_through hostOps0
theorem s0_arg4 : StableHlo.after hostOps0 Wv (Proc.devRef .tc main_arg4) = Wv (Proc.devRef .tc main_arg4) := by kept_through hostOps0
theorem s0_arg5 : StableHlo.after hostOps0 Wv (Proc.devRef .tc main_arg5) = Wv (Proc.devRef .tc main_arg5) := by kept_through hostOps0
theorem s0_arg6 : StableHlo.after hostOps0 Wv (Proc.devRef .tc main_arg6) = Wv (Proc.devRef .tc main_arg6) := by kept_through hostOps0
theorem s0_arg7 : StableHlo.after hostOps0 Wv (Proc.devRef .tc main_arg7) = Wv (Proc.devRef .tc main_arg7) := by kept_through hostOps0
theorem s0_arg8 : StableHlo.after hostOps0 Wv (Proc.devRef .tc main_arg8) = Wv (Proc.devRef .tc main_arg8) := by kept_through hostOps0

/-! ### Between the first and the second region -/

theorem s1_v34 : StableHlo.after hostOps1 Wv (Proc.devRef .tc main_v34)
    = Cert.Net.agg256 (Wv (Proc.devRef .tc main_v24)) (Wv (Proc.devRef .tc main_arg7)) (Wv (Proc.devRef .tc main_arg8)) := by
  after_results; rfl
theorem s1_v36 : StableHlo.after hostOps1 Wv (Proc.devRef .tc main_v36) = Cert.Net.wa2 (Wv (Proc.devRef .tc main_arg3)) := by
  after_results; rfl
theorem s1_v38 : StableHlo.after hostOps1 Wv (Proc.devRef .tc main_v38) = Cert.Net.wb2 (Wv (Proc.devRef .tc main_arg3)) := by
  after_results; rfl
theorem s1_v39 : StableHlo.after hostOps1 Wv (Proc.devRef .tc main_v39) = Cert.Net.br2 (Wv (Proc.devRef .tc main_arg4)) := by
  after_results; rfl
theorem s1_v24 : StableHlo.after hostOps1 Wv (Proc.devRef .tc main_v24) = Wv (Proc.devRef .tc main_v24) := by kept_through hostOps1
theorem s1_v8 : StableHlo.after hostOps1 Wv (Proc.devRef .tc main_v8) = Wv (Proc.devRef .tc main_v8) := by kept_through hostOps1
theorem s1_arg5 : StableHlo.after hostOps1 Wv (Proc.devRef .tc main_arg5) = Wv (Proc.devRef .tc main_arg5) := by kept_through hostOps1
theorem s1_arg6 : StableHlo.after hostOps1 Wv (Proc.devRef .tc main_arg6) = Wv (Proc.devRef .tc main_arg6) := by kept_through hostOps1
theorem s1_arg7 : StableHlo.after hostOps1 Wv (Proc.devRef .tc main_arg7) = Wv (Proc.devRef .tc main_arg7) := by kept_through hostOps1
theorem s1_arg8 : StableHlo.after hostOps1 Wv (Proc.devRef .tc main_arg8) = Wv (Proc.devRef .tc main_arg8) := by kept_through hostOps1

/-! ### Between the second and the third region -/

theorem s2_v50 : StableHlo.after hostOps2 Wv (Proc.devRef .tc main_v50)
    = Cert.Net.agg256 (Wv (Proc.devRef .tc main_v40)) (Wv (Proc.devRef .tc main_arg7)) (Wv (Proc.devRef .tc main_arg8)) := by
  after_results; rfl
theorem s2_v52 : StableHlo.after hostOps2 Wv (Proc.devRef .tc main_v52) = Cert.Net.wa3 (Wv (Proc.devRef .tc main_arg5)) := by
  after_results; rfl
theorem s2_v54 : StableHlo.after hostOps2 Wv (Proc.devRef .tc main_v54) = Cert.Net.wb3 (Wv (Proc.devRef .tc main_arg5)) := by
  after_results; rfl
theorem s2_v55 : StableHlo.after hostOps2 Wv (Proc.devRef .tc main_v55) = Cert.Net.br3 (Wv (Proc.devRef .tc main_arg6)) := by
  after_results; rfl
theorem s2_v40 : StableHlo.after hostOps2 Wv (Proc.devRef .tc main_v40) = Wv (Proc.devRef .tc main_v40) := by kept_through hostOps2
theorem s2_v8 : StableHlo.after hostOps2 Wv (Proc.devRef .tc main_v8) = Wv (Proc.devRef .tc main_v8) := by kept_through hostOps2

end Stretches

/-! ## The fold, boundary by boundary -/

variable (m : (ℓ : Loc nD τ sig) → Buf (Elt Ideal) ℓ) (ρ : Dev nD → PrngReg) (c : Dev nD)

/-- The arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-! ### After the first stretch -/

theorem W1_arg0 : W1 m ρ c (Proc.devRef .tc main_arg0) = a0 m c := s0_arg0 (W0 m ρ c)
theorem W1_v18 : W1 m ρ c (Proc.devRef .tc main_v18) = Cert.Net.agg128 (a0 m c) (a7 m c) (a8 m c) := s0_v18 (W0 m ρ c)
theorem W1_v8 : W1 m ρ c (Proc.devRef .tc main_v8) = Cert.Net.invdeg (a8 m c) := s0_v8 (W0 m ρ c)
theorem W1_v20 : W1 m ρ c (Proc.devRef .tc main_v20) = Cert.Net.wa1 (a1 m c) := s0_v20 (W0 m ρ c)
theorem W1_v22 : W1 m ρ c (Proc.devRef .tc main_v22) = Cert.Net.wb1 (a1 m c) := s0_v22 (W0 m ρ c)
theorem W1_v23 : W1 m ρ c (Proc.devRef .tc main_v23) = Cert.Net.br1 (a2 m c) := s0_v23 (W0 m ρ c)

/-! ### After the first region -/

theorem W2_v24 : W2 m ρ c (Proc.devRef .tc main_v24) = Cert.Net.h1 (a0 m c) (a1 m c) (a2 m c) (a7 m c) (a8 m c) := by
  refine (W2_arr m ρ c 6).trans ((Cert.KernelIdeal.Region0.final (V1 m ρ) c).trans ?_)
  show Cert.Sage.act (W1 m ρ c (Proc.devRef .tc main_arg0)) (W1 m ρ c (Proc.devRef .tc main_v18))
    (W1 m ρ c (Proc.devRef .tc main_v8)) (W1 m ρ c (Proc.devRef .tc main_v20)) (W1 m ρ c (Proc.devRef .tc main_v22))
    (W1 m ρ c (Proc.devRef .tc main_v23)) = _
  rw [W1_arg0, W1_v18, W1_v8, W1_v20, W1_v22, W1_v23]
  rfl
theorem W2_v8 : W2 m ρ c (Proc.devRef .tc main_v8) = Cert.Net.invdeg (a8 m c) :=
  (W2_arr m ρ c 2).trans ((((dat0 (V1 m ρ) c).arrAt_in 2 rfl _).trans (A_eq0 (V1 m ρ) c 2)).trans (W1_v8 m ρ c))
theorem W2_arg3 : W2 m ρ c (Proc.devRef .tc main_arg3) = a3 m c := (W2_of_ne m ρ c main_arg3 (by decide)).trans (s0_arg3 (W0 m ρ c))
theorem W2_arg4 : W2 m ρ c (Proc.devRef .tc main_arg4) = a4 m c := (W2_of_ne m ρ c main_arg4 (by decide)).trans (s0_arg4 (W0 m ρ c))
theorem W2_arg5 : W2 m ρ c (Proc.devRef .tc main_arg5) = a5 m c := (W2_of_ne m ρ c main_arg5 (by decide)).trans (s0_arg5 (W0 m ρ c))
theorem W2_arg6 : W2 m ρ c (Proc.devRef .tc main_arg6) = a6 m c := (W2_of_ne m ρ c main_arg6 (by decide)).trans (s0_arg6 (W0 m ρ c))
theorem W2_arg7 : W2 m ρ c (Proc.devRef .tc main_arg7) = a7 m c := (W2_of_ne m ρ c main_arg7 (by decide)).trans (s0_arg7 (W0 m ρ c))
theorem W2_arg8 : W2 m ρ c (Proc.devRef .tc main_arg8) = a8 m c := (W2_of_ne m ρ c main_arg8 (by decide)).trans (s0_arg8 (W0 m ρ c))

/-! ### After the second stretch -/

theorem W3_v24 : W3 m ρ c (Proc.devRef .tc main_v24) = Cert.Net.h1 (a0 m c) (a1 m c) (a2 m c) (a7 m c) (a8 m c) :=
  (s1_v24 (W2 m ρ c)).trans (W2_v24 m ρ c)
theorem W3_v34 : W3 m ρ c (Proc.devRef .tc main_v34)
    = Cert.Net.agg256 (Cert.Net.h1 (a0 m c) (a1 m c) (a2 m c) (a7 m c) (a8 m c)) (a7 m c) (a8 m c) := by
  refine (s1_v34 (W2 m ρ c)).trans ?_
  rw [W2_v24, W2_arg7, W2_arg8]
theorem W3_v8 : W3 m ρ c (Proc.devRef .tc main_v8) = Cert.Net.invdeg (a8 m c) := (s1_v8 (W2 m ρ c)).trans (W2_v8 m ρ c)
theorem W3_v36 : W3 m ρ c (Proc.devRef .tc main_v36) = Cert.Net.wa2 (a3 m c) := by
  refine (s1_v36 (W2 m ρ c)).trans ?_; rw [W2_arg3]
theorem W3_v38 : W3 m ρ c (Proc.devRef .tc main_v38) = Cert.Net.wb2 (a3 m c) := by
  refine (s1_v38 (W2 m ρ c)).trans ?_; rw [W2_arg3]
theorem W3_v39 : W3 m ρ c (Proc.devRef .tc main_v39) = Cert.Net.br2 (a4 m c) := by
  refine (s1_v39 (W2 m ρ c)).trans ?_; rw [W2_arg4]
theorem W3_arg5 : W3 m ρ c (Proc.devRef .tc main_arg5) = a5 m c := (s1_arg5 (W2 m ρ c)).trans (W2_arg5 m ρ c)
theorem W3_arg6 : W3 m ρ c (Proc.devRef .tc main_arg6) = a6 m c := (s1_arg6 (W2 m ρ c)).trans (W2_arg6 m ρ c)
theorem W3_arg7 : W3 m ρ c (Proc.devRef .tc main_arg7) = a7 m c := (s1_arg7 (W2 m ρ c)).trans (W2_arg7 m ρ c)
theorem W3_arg8 : W3 m ρ c (Proc.devRef .tc main_arg8) = a8 m c := (s1_arg8 (W2 m ρ c)).trans (W2_arg8 m ρ c)

/-! ### After the second region -/

/-- The second layer's output. -/
abbrev l2 := Cert.Net.layer2 (Cert.Net.h1 (a0 m c) (a1 m c) (a2 m c) (a7 m c) (a8 m c)) (a3 m c) (a4 m c) (a7 m c) (a8 m c)

theorem W4_v40 : W4 m ρ c (Proc.devRef .tc main_v40) = l2 m c := by
  refine (W4_arr m ρ c 6).trans ((Cert.KernelIdeal.Region1.final (V3 m ρ) c).trans ?_)
  show Cert.Sage.act (W3 m ρ c (Proc.devRef .tc main_v24)) (W3 m ρ c (Proc.devRef .tc main_v34))
    (W3 m ρ c (Proc.devRef .tc main_v8)) (W3 m ρ c (Proc.devRef .tc main_v36)) (W3 m ρ c (Proc.devRef .tc main_v38))
    (W3 m ρ c (Proc.devRef .tc main_v39)) = _
  rw [W3_v24, W3_v34, W3_v8, W3_v36, W3_v38, W3_v39]
  rfl
theorem W4_v8 : W4 m ρ c (Proc.devRef .tc main_v8) = Cert.Net.invdeg (a8 m c) :=
  (W4_arr m ρ c 2).trans ((((dat1 (V3 m ρ) c).arrAt_in 2 rfl _).trans (A_eq1 (V3 m ρ) c 2)).trans (W3_v8 m ρ c))
theorem W4_arg5 : W4 m ρ c (Proc.devRef .tc main_arg5) = a5 m c := (W4_of_ne m ρ c main_arg5 (by decide)).trans (W3_arg5 m ρ c)
theorem W4_arg6 : W4 m ρ c (Proc.devRef .tc main_arg6) = a6 m c := (W4_of_ne m ρ c main_arg6 (by decide)).trans (W3_arg6 m ρ c)
theorem W4_arg7 : W4 m ρ c (Proc.devRef .tc main_arg7) = a7 m c := (W4_of_ne m ρ c main_arg7 (by decide)).trans (W3_arg7 m ρ c)
theorem W4_arg8 : W4 m ρ c (Proc.devRef .tc main_arg8) = a8 m c := (W4_of_ne m ρ c main_arg8 (by decide)).trans (W3_arg8 m ρ c)

/-! ### After the third stretch -/

theorem W5_v40 : W5 m ρ c (Proc.devRef .tc main_v40) = l2 m c := (s2_v40 (W4 m ρ c)).trans (W4_v40 m ρ c)
theorem W5_v50 : W5 m ρ c (Proc.devRef .tc main_v50) = Cert.Net.agg256 (l2 m c) (a7 m c) (a8 m c) := by
  refine (s2_v50 (W4 m ρ c)).trans ?_
  rw [W4_v40, W4_arg7, W4_arg8]
theorem W5_v8 : W5 m ρ c (Proc.devRef .tc main_v8) = Cert.Net.invdeg (a8 m c) := (s2_v8 (W4 m ρ c)).trans (W4_v8 m ρ c)
theorem W5_v52 : W5 m ρ c (Proc.devRef .tc main_v52) = Cert.Net.wa3 (a5 m c) := by
  refine (s2_v52 (W4 m ρ c)).trans ?_; rw [W4_arg5]
theorem W5_v54 : W5 m ρ c (Proc.devRef .tc main_v54) = Cert.Net.wb3 (a5 m c) := by
  refine (s2_v54 (W4 m ρ c)).trans ?_; rw [W4_arg5]
theorem W5_v55 : W5 m ρ c (Proc.devRef .tc main_v55) = Cert.Net.br3 (a6 m c) := by
  refine (s2_v55 (W4 m ρ c)).trans ?_; rw [W4_arg6]

/-! ### After the third region: the result -/

/-- The result buffer at the last boundary is the network of the arguments as launched. -/
theorem W6_v56 : W6 m ρ c (Proc.devRef .tc main_v56)
    = Cert.Net.out (a0 m c) (a1 m c) (a2 m c) (a3 m c) (a4 m c) (a5 m c) (a6 m c) (a7 m c) (a8 m c) := by
  refine (W6_arr m ρ c 6).trans ((Cert.KernelIdeal.Region2.final (V5 m ρ) c).trans ?_)
  show Cert.Sage.lin (W5 m ρ c (Proc.devRef .tc main_v40)) (W5 m ρ c (Proc.devRef .tc main_v50))
    (W5 m ρ c (Proc.devRef .tc main_v8)) (W5 m ρ c (Proc.devRef .tc main_v52)) (W5 m ρ c (Proc.devRef .tc main_v54))
    (W5 m ρ c (Proc.devRef .tc main_v55)) = _
  rw [W5_v40, W5_v50, W5_v8, W5_v52, W5_v54, W5_v55]
  rfl

end Cert.KernelIdeal.NetValue

end
-- ==== Proof.LibRecipMean.lean ====
/-
  A mean taken by multiplying with a reciprocal is the mean taken by dividing (a general lemma: nothing here depends on
  a program; any sizes).

  For a matrix S : [A, B] of row sums and a vector g : [A] of counts, let d = max(g, 1) entry by entry. One program
  forms the vector 1 / d first and multiplies row a of S by its entry a; another divides row a of S by d[a]. On the
  extended reals the quotient by a nonzero d is the product with d⁻¹ whatever the numerator (the infinities included),
  and d ≥ 1 is never zero, so  y · (1 · d⁻¹) = y · d⁻¹  and the two arrays are equal, with no condition on S or g.
  Both are read here in the host's spelling: the vector broadcast to a column and the column across the row, the ones
  broadcast scalars.
-/
import Idealize.ShloMosaic.Lib.ValueIdx
import Idealize.ShloMosaic.Lib.IdealHost
import Idealize.ShloMosaic.Lib.Pipeline.Value
import Idealize.ShloMosaic.PureOps.Ideal.Laws

noncomputable section

namespace Cert.Lib.RecipMean

open Idealize.ShloMosaic Idealize.ShloMosaic.ValueIdx

/-- y · (1 / max(g, 1)) = y / max(g, 1) on the extended reals: the divisor is at least one, so it is not zero, and the
    quotient by it is the product with its inverse on both sides. -/
theorem mul_recip_max (y g : EReal) : y * Ideal.div 1 (max g 1) = Ideal.div y (max g 1) := by
  have hpos : (0 : EReal) < max g 1 := lt_of_lt_of_le zero_lt_one (le_max_right g 1)
  have hne : max g 1 ≠ 0 := ne_of_gt hpos
  unfold Ideal.div
  rw [if_neg hne, if_neg hne, one_mul]

variable {A B : Nat}

/-- A vector broadcast to a column and the column across the row, at (a, b), is the vector at a. -/
theorem colBcast_apply (v : (⟨1, ![A]⟩ : Shape).Idx → EReal)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h2
        (broadcastInDim ⟨2, ![A, 1]⟩ (![0] : Fin 1 → Fin 2) h1 v) (ix2 a b) = v (ix1 a) := by
  refine (broadcastInDim_apply (![0, 1] : Fin 2 → Fin 2) h2 _ (ix2 a b) (ix2 a (0 : Fin 1)) ?_).trans
    (broadcastInDim_apply (![0] : Fin 1 → Fin 2) h1 v (ix2 a (0 : Fin 1)) (ix1 a) ?_)
  · intro d
    match d with
    | ⟨0, _⟩ =>
      show a.val = if A = 1 then 0 else a.val
      split
      · have := a.isLt; omega
      · rfl
    | ⟨1, _⟩ => simp
  · intro d
    match d with
    | ⟨0, _⟩ =>
      show a.val = if A = 1 then 0 else a.val
      split
      · have := a.isLt; omega
      · rfl

/-- The rows of S times the reciprocals of max(g, 1) are the rows of S divided by max(g, 1). -/
theorem recipMean_eq (S : FVec Ideal ⟨2, ![A, B]⟩ .f32) (g : FVec Ideal ⟨1, ![A]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) :
    mulf S
      (broadcastInDim ⟨2, ![A, B]⟩ (![0, 1] : Fin 2 → Fin 2) h2
        (broadcastInDim ⟨2, ![A, 1]⟩ (![0] : Fin 1 → Fin 2) h1
          (Host.divf (broadcastInDim ⟨1, ![A]⟩ (![] : Fin 0 → Fin 1) h0 (constant (F := Ideal) ⟨0, ![]⟩ .f32 0x3F800000#32))
            (maximumf g (broadcastInDim ⟨1, ![A]⟩ (![] : Fin 0 → Fin 1) h0 (constant (F := Ideal) ⟨0, ![]⟩ .f32 0x3F800000#32))))))
    = Host.divf S
      (broadcastInDim ⟨2, ![A, B]⟩ (![0, 1] : Fin 2 → Fin 2) h2
        (broadcastInDim ⟨2, ![A, 1]⟩ (![0] : Fin 1 → Fin 2) h1
          (maximumf g (broadcastInDim ⟨1, ![A]⟩ (![] : Fin 0 → Fin 1) h0 (constant (F := Ideal) ⟨0, ![]⟩ .f32 0x3F800000#32))))) := by
  funext i
  obtain ⟨a, b, rfl⟩ : ∃ (a : Fin A) (b : Fin B), i = ix2 a b := ⟨i 0, i 1, eq_ix2 i⟩
  rw [mulf_apply, hostDivf_apply, colBcast_apply, colBcast_apply, hostDivf_apply, maximumf_apply,
    broadcastInDim_scalar_apply, constant_apply, Ideal.ofBits_one_f32]
  exact mul_recip_max _ _

end Cert.Lib.RecipMean

end
-- ==== Proof.RefValue.lean ====
/-
  The reference program's result, as a function of its arguments, is the three-layer mean-aggregating network.

  The reference computes each layer as  concat(h, ms / max(deg, 1)) · W + b  (rectified after the first two layers):
  the neighbour sums ms are divided by the in-degree (at least one), the quotient is joined to the features along the
  columns, and the join is multiplied by the stacked weight matrix W : [K + K, C]. The network of Net.lean applies
  the layer function of LibSageMean.lean: entry (p, q) is

      ( sum_k h[p, k] * wa[k, q]  +  sum_k (ms[p, k] * inv[p, 0]) * wb[k, q] )  +  b[0, q],

  with wa and wb the two halves of W, inv the column of reciprocals 1 / max(deg, 1) and b the bias as one row.
  The product of a join with the stacked matrix is the sum of the two products with its halves; a quotient by
  max(deg, 1) is the product with the reciprocal, the divisor being at least one and so not zero (on the extended
  reals this needs no finiteness); narrowing the weights is the identity at the ideal values. So the host's spelling of
  a layer is the layer function, for any sizes (host_layer_apply, host_act_apply).

  The gathers, the scatter-adds and the in-degree count are the same host operations in both programs, over records
  with the same fields; they are never opened: the reference's neighbour sums and counts are the network's by
  unfolding the names. The three layers are then chained: the second and third layer are read over the previous
  layer's value as it stands, and the three equalities are rewritten into one.
-/
import proofs.«139259_j6536940224561_1_alg».proof.Proof.Gen.ReferenceIdeal.Read
import proofs.«139259_j6536940224561_1_alg».proof.Proof.Net
import proofs.«139259_j6536940224561_1_alg».proof.Proof.LibSageMean
import proofs.«139259_j6536940224561_1_alg».proof.Proof.LibRecipMean
import Idealize.ShloMosaic.Lib.ValueIdx
import Idealize.ShloMosaic.Lib.IdealHost
import Idealize.ShloMosaic.Lib.Pipeline.Value
import Idealize.ShloMosaic.PureOps.Ideal.Laws

noncomputable section

namespace Cert.RefNet

open Idealize.ShloMosaic Idealize.ShloMosaic.ValueIdx

/-! ## One layer of the host program, any sizes -/

section Layer

variable {A K C K2 : Nat}

/-- The host's spelling of the layer before the rectifier, at entry (p, q), is the layer function at these operands:
    the two halves of the stacked weights as slices (narrowing is the identity at the ideal values), the bias vector as
    one row, and the reciprocals of the counts (at least one) as a column. The host divides the sums by the count; the
    layer function multiplies them by the reciprocal: the same on the extended reals, the divisor being at least one. -/
theorem host_layer_apply (hK2 : K2 = K + K)
    (h ms : FVec Ideal ⟨2, ![A, K]⟩ .f32) (g : FVec Ideal ⟨1, ![A]⟩ .f32)
    (W : FVec Ideal ⟨2, ![K2, C]⟩ .f32) (bias : FVec Ideal ⟨1, ![C]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (hc : Shape.Concatenates [(⟨2, ![A, K]⟩ : Shape), (⟨2, ![A, K]⟩ : Shape)] ⟨2, ![A, K2]⟩ 1)
    (hsa : (⟨2, ![K2, C]⟩ : Shape).Slices ![0, 0] ⟨2, ![K, C]⟩)
    (hsb : (⟨2, ![K2, C]⟩ : Shape).Slices ![K, 0] ⟨2, ![K, C]⟩)
    (hci : (⟨1, ![A]⟩ : Shape).ShapeCasts ⟨2, ![A, 1]⟩)
    (hcb : (⟨1, ![C]⟩ : Shape).ShapeCasts ⟨2, ![1, C]⟩)
    (hlt : FTy.bits .bf16 < FTy.bits .f32) (p : Fin A) (q : Fin C) :
    addf (Host.dotGeneral (F := Ideal) (DotDims.plain A K2 C) none
          (concatenate ⟨2, ![A, K2]⟩ 1 [⟨⟨2, ![A, K]⟩, h⟩, ⟨⟨2, ![A, K]⟩,
            Host.divf (F := Ideal) ms
              (broadcastInDim ⟨2, ![A, K]⟩ (![0, 1] : Fin 2 → Fin 2) h2
                (broadcastInDim ⟨2, ![A, 1]⟩ (![0] : Fin 1 → Fin 2) h1
                  (maximumf (F := Ideal) g
                    (broadcastInDim ⟨1, ![A]⟩ (![] : Fin 0 → Fin 1) h0 (constant (F := Ideal) ⟨0, ![]⟩ .f32 0x3F800000#32)))))⟩] hc) W)
        (broadcastInDim ⟨2, ![A, C]⟩ (![0, 1] : Fin 2 → Fin 2) hb2 (broadcastInDim ⟨2, ![1, C]⟩ (![1] : Fin 1 → Fin 2) hb1 bias))
        (ix2 p q)
      = Cert.Sage.linAt h ms
          (shapeCast ⟨2, ![A, 1]⟩
            (Host.divf (F := Ideal)
              (broadcastInDim ⟨1, ![A]⟩ (![] : Fin 0 → Fin 1) h0 (constant (F := Ideal) ⟨0, ![]⟩ .f32 0x3F800000#32))
              (maximumf (F := Ideal) g
                (broadcastInDim ⟨1, ![A]⟩ (![] : Fin 0 → Fin 1) h0 (constant (F := Ideal) ⟨0, ![]⟩ .f32 0x3F800000#32)))) hci)
          (truncf (F := Ideal) .bf16 (extractStridedSlice ⟨2, ![K, C]⟩ ![0, 0] W hsa) hlt)
          (truncf (F := Ideal) .bf16 (extractStridedSlice ⟨2, ![K, C]⟩ ![K, 0] W hsb) hlt)
          (shapeCast ⟨2, ![1, C]⟩ bias hcb) p q := by
  rw [Cert.Sage.host_lin_apply hK2 h ms _ W _ hc p q]
  unfold Cert.Sage.linAt
  congr 1
  · congr 1
    · -- the node's own features meet rows 0 … K - 1 of the stacked weights
      refine Finset.sum_congr rfl fun k _ => ?_
      rw [truncf_apply, extractStridedSlice_apply ![0, 0] W hsa (ix2 k q) (ix2 (⟨k.val, by omega⟩ : Fin K2) q)
        (fun a => by
          match a with
          | ⟨0, _⟩ => show k.val = 0 + k.val; omega
          | ⟨1, _⟩ => show q.val = 0 + q.val; omega)]
    · -- the neighbour mean meets rows K … K + K - 1; the quotient by the count is the product with its reciprocal
      refine Finset.sum_congr rfl fun k _ => ?_
      rw [truncf_apply, extractStridedSlice_apply ![K, 0] W hsb (ix2 k q) (ix2 (⟨K + k.val, by omega⟩ : Fin K2) q)
        (fun a => by
          match a with
          | ⟨0, _⟩ => show K + k.val = K + k.val; rfl
          | ⟨1, _⟩ => show q.val = 0 + q.val; omega)]
      congr 1
      rw [Cert.Lib.RecipMean.colBcast_apply, maximumf_apply, broadcastInDim_scalar_apply, constant_apply,
        Ideal.ofBits_one_f32,
        shapeCast_apply _ hci (ix2 p (0 : Fin 1)) (ix1 p)
          (by rw [Shape.rowMajor_val_one, Shape.rowMajor_val_two]; show p.val = p.val * 1 + 0; omega),
        hostDivf_apply, maximumf_apply, broadcastInDim_scalar_apply, constant_apply, Ideal.ofBits_one_f32]
      exact (Cert.Lib.RecipMean.mul_recip_max _ _).symm
  · -- the bias vector broadcast to a row and down the rows is the vector as one row
    refine (broadcastInDim_apply (![0, 1] : Fin 2 → Fin 2) hb2 _ (ix2 p q) (ix2 (0 : Fin 1) q) ?_).trans
      ((broadcastInDim_apply (![1] : Fin 1 → Fin 2) hb1 bias (ix2 (0 : Fin 1) q) (ix1 q) ?_).trans ?_)
    · intro a
      match a with
      | ⟨0, _⟩ => simp
      | ⟨1, _⟩ =>
        show q.val = if C = 1 then 0 else q.val
        split
        · have := q.isLt; omega
        · rfl
    · intro a
      match a with
      | ⟨0, _⟩ =>
        show q.val = if C = 1 then 0 else q.val
        split
        · have := q.isLt; omega
        · rfl
    · refine ((shapeCast_addUnit_apply (n := 1) ![C] bias hcb (ix2 (0 : Fin 1) q)).trans (congrArg bias ?_)).symm
      funext a
      match a with
      | ⟨0, _⟩ => rfl

/-- The same with the rectifier: the maximum with a zero broadcast to every entry. -/
theorem host_act_apply (hK2 : K2 = K + K)
    (h ms : FVec Ideal ⟨2, ![A, K]⟩ .f32) (g : FVec Ideal ⟨1, ![A]⟩ .f32)
    (W : FVec Ideal ⟨2, ![K2, C]⟩ .f32) (bias : FVec Ideal ⟨1, ![C]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (hz : (⟨0, ![]⟩ : Shape).BroadcastsInDim ⟨2, ![A, C]⟩ (![] : Fin 0 → Fin 2))
    (hc : Shape.Concatenates [(⟨2, ![A, K]⟩ : Shape), (⟨2, ![A, K]⟩ : Shape)] ⟨2, ![A, K2]⟩ 1)
    (hsa : (⟨2, ![K2, C]⟩ : Shape).Slices ![0, 0] ⟨2, ![K, C]⟩)
    (hsb : (⟨2, ![K2, C]⟩ : Shape).Slices ![K, 0] ⟨2, ![K, C]⟩)
    (hci : (⟨1, ![A]⟩ : Shape).ShapeCasts ⟨2, ![A, 1]⟩)
    (hcb : (⟨1, ![C]⟩ : Shape).ShapeCasts ⟨2, ![1, C]⟩)
    (hlt : FTy.bits .bf16 < FTy.bits .f32) (p : Fin A) (q : Fin C) :
    maximumf (F := Ideal)
        (addf (Host.dotGeneral (F := Ideal) (DotDims.plain A K2 C) none
          (concatenate ⟨2, ![A, K2]⟩ 1 [⟨⟨2, ![A, K]⟩, h⟩, ⟨⟨2, ![A, K]⟩,
            Host.divf (F := Ideal) ms
              (broadcastInDim ⟨2, ![A, K]⟩ (![0, 1] : Fin 2 → Fin 2) h2
                (broadcastInDim ⟨2, ![A, 1]⟩ (![0] : Fin 1 → Fin 2) h1
                  (maximumf (F := Ideal) g
                    (broadcastInDim ⟨1, ![A]⟩ (![] : Fin 0 → Fin 1) h0 (constant (F := Ideal) ⟨0, ![]⟩ .f32 0x3F800000#32)))))⟩] hc) W)
          (broadcastInDim ⟨2, ![A, C]⟩ (![0, 1] : Fin 2 → Fin 2) hb2 (broadcastInDim ⟨2, ![1, C]⟩ (![1] : Fin 1 → Fin 2) hb1 bias)))
        (broadcastInDim ⟨2, ![A, C]⟩ (![] : Fin 0 → Fin 2) hz (constant (F := Ideal) ⟨0, ![]⟩ .f32 0x00000000#32))
        (ix2 p q)
      = max (Cert.Sage.linAt h ms
          (shapeCast ⟨2, ![A, 1]⟩
            (Host.divf (F := Ideal)
              (broadcastInDim ⟨1, ![A]⟩ (![] : Fin 0 → Fin 1) h0 (constant (F := Ideal) ⟨0, ![]⟩ .f32 0x3F800000#32))
              (maximumf (F := Ideal) g
                (broadcastInDim ⟨1, ![A]⟩ (![] : Fin 0 → Fin 1) h0 (constant (F := Ideal) ⟨0, ![]⟩ .f32 0x3F800000#32)))) hci)
          (truncf (F := Ideal) .bf16 (extractStridedSlice ⟨2, ![K, C]⟩ ![0, 0] W hsa) hlt)
          (truncf (F := Ideal) .bf16 (extractStridedSlice ⟨2, ![K, C]⟩ ![K, 0] W hsb) hlt)
          (shapeCast ⟨2, ![1, C]⟩ bias hcb) p q) 0 := by
  rw [maximumf_apply, broadcastInDim_scalar_apply, constant_apply, Ideal.ofBits_zero_f32,
    host_layer_apply hK2 h ms g W bias h0 h1 h2 hb1 hb2 hc hsa hsb hci hcb hlt p q]

end Layer

/-! ## The reference program, layer by layer

The reference's gathers, scatter-adds and in-degree count are the network's own host operations over records of the
same fields, so its neighbour sums and counts are the network's by unfolding the names; each layer is then the host's
spelling of the layer function, entry by entry. -/

section Program

open Cert.ReferenceIdeal.Read

/-- The reference's rectified first layer is the network's. -/
theorem layer1_eq (x0 : (⟨Cert.ReferenceIdeal.S40000x128, .f32⟩ : BufTy).Contents (Elt Ideal))
    (x1 : (⟨Cert.ReferenceIdeal.S256x256, .f32⟩ : BufTy).Contents (Elt Ideal))
    (x2 : (⟨Cert.ReferenceIdeal.S256, .f32⟩ : BufTy).Contents (Elt Ideal))
    (x7 x8 : (⟨Cert.ReferenceIdeal.S640000, .i32⟩ : BufTy).Contents (Elt Ideal)) :
    val_main_v24 (F := Ideal) x0 x1 x2 x7 x8 = Cert.Net.h1 x0 x1 x2 x7 x8 := by
  funext i
  obtain ⟨p, q, rfl⟩ : ∃ (p : Fin 40000) (q : Fin 256), i = ix2 p q := ⟨i 0, i 1, eq_ix2 i⟩
  exact host_act_apply (A := 40000) (K := 128) (C := 256) (K2 := 256) rfl x0 (Cert.Net.agg128 x0 x7 x8) (Cert.Net.deg x8) x1 x2
    Cert.ReferenceIdeal.Gen.bcast_S_S40000 Cert.ReferenceIdeal.Gen.bcast_S40000_S40000x1_0
    Cert.ReferenceIdeal.Gen.bcast_S40000x1_S40000x128_0_1 Cert.ReferenceIdeal.Gen.bcast_S256_S1x256_1
    Cert.ReferenceIdeal.Gen.bcast_S1x256_S40000x256_0_1 Cert.ReferenceIdeal.Gen.bcast_S_S40000x256
    Cert.ReferenceIdeal.Gen.concatenates_S40000x128_S40000x128_S40000x256_d1
    Cert.KernelIdeal.Gen.slices_S256x256_S128x256_0_0 Cert.KernelIdeal.Gen.slices_S256x256_S128x256_128_0
    Cert.KernelIdeal.Gen.shapeCasts_S40000_S40000x1 Cert.KernelIdeal.Gen.shapeCasts_S256_S1x256
    Cert.KernelIdeal.Gen.bitsLt_bf16_f32 p q

/-- The reference's rectified second layer is the network's second layer on the reference's first. -/
theorem layer2_eq (x0 : (⟨Cert.ReferenceIdeal.S40000x128, .f32⟩ : BufTy).Contents (Elt Ideal))
    (x1 : (⟨Cert.ReferenceIdeal.S256x256, .f32⟩ : BufTy).Contents (Elt Ideal))
    (x2 : (⟨Cert.ReferenceIdeal.S256, .f32⟩ : BufTy).Contents (Elt Ideal))
    (x3 : (⟨Cert.ReferenceIdeal.S512x256, .f32⟩ : BufTy).Contents (Elt Ideal))
    (x4 : (⟨Cert.ReferenceIdeal.S256, .f32⟩ : BufTy).Contents (Elt Ideal))
    (x7 x8 : (⟨Cert.ReferenceIdeal.S640000, .i32⟩ : BufTy).Contents (Elt Ideal)) :
    val_main_v49 (F := Ideal) x0 x1 x2 x3 x4 x7 x8
      = Cert.Net.layer2 (val_main_v24 (F := Ideal) x0 x1 x2 x7 x8) x3 x4 x7 x8 := by
  funext i
  obtain ⟨p, q, rfl⟩ : ∃ (p : Fin 40000) (q : Fin 256), i = ix2 p q := ⟨i 0, i 1, eq_ix2 i⟩
  exact host_act_apply (A := 40000) (K := 256) (C := 256) (K2 := 512) rfl (val_main_v24 (F := Ideal) x0 x1 x2 x7 x8)
    (Cert.Net.agg256 (val_main_v24 (F := Ideal) x0 x1 x2 x7 x8) x7 x8) (Cert.Net.deg x8) x3 x4
    Cert.ReferenceIdeal.Gen.bcast_S_S40000 Cert.ReferenceIdeal.Gen.bcast_S40000_S40000x1_0
    Cert.ReferenceIdeal.Gen.bcast_S40000x1_S40000x256_0_1 Cert.ReferenceIdeal.Gen.bcast_S256_S1x256_1
    Cert.ReferenceIdeal.Gen.bcast_S1x256_S40000x256_0_1 Cert.ReferenceIdeal.Gen.bcast_S_S40000x256
    Cert.ReferenceIdeal.Gen.concatenates_S40000x256_S40000x256_S40000x512_d1
    Cert.KernelIdeal.Gen.slices_S512x256_S256x256_0_0 Cert.KernelIdeal.Gen.slices_S512x256_S256x256_256_0
    Cert.KernelIdeal.Gen.shapeCasts_S40000_S40000x1 Cert.KernelIdeal.Gen.shapeCasts_S256_S1x256
    Cert.KernelIdeal.Gen.bitsLt_bf16_f32 p q

/-- The reference's last layer, not rectified, is the network's last layer on the reference's second. -/
theorem layer3_eq (x0 : (⟨Cert.ReferenceIdeal.S40000x128, .f32⟩ : BufTy).Contents (Elt Ideal))
    (x1 : (⟨Cert.ReferenceIdeal.S256x256, .f32⟩ : BufTy).Contents (Elt Ideal))
    (x2 : (⟨Cert.ReferenceIdeal.S256, .f32⟩ : BufTy).Contents (Elt Ideal))
    (x3 : (⟨Cert.ReferenceIdeal.S512x256, .f32⟩ : BufTy).Contents (Elt Ideal))
    (x4 : (⟨Cert.ReferenceIdeal.S256, .f32⟩ : BufTy).Contents (Elt Ideal))
    (x5 : (⟨Cert.ReferenceIdeal.S512x47, .f32⟩ : BufTy).Contents (Elt Ideal))
    (x6 : (⟨Cert.ReferenceIdeal.S47, .f32⟩ : BufTy).Contents (Elt Ideal))
    (x7 x8 : (⟨Cert.ReferenceIdeal.S640000, .i32⟩ : BufTy).Contents (Elt Ideal)) :
    val_main_v73 (F := Ideal) x0 x1 x2 x3 x4 x5 x6 x7 x8
      = Cert.Net.layer3 (val_main_v49 (F := Ideal) x0 x1 x2 x3 x4 x7 x8) x5 x6 x7 x8 := by
  funext i
  obtain ⟨p, q, rfl⟩ : ∃ (p : Fin 40000) (q : Fin 47), i = ix2 p q := ⟨i 0, i 1, eq_ix2 i⟩
  exact host_layer_apply (A := 40000) (K := 256) (C := 47) (K2 := 512) rfl (val_main_v49 (F := Ideal) x0 x1 x2 x3 x4 x7 x8)
    (Cert.Net.agg256 (val_main_v49 (F := Ideal) x0 x1 x2 x3 x4 x7 x8) x7 x8) (Cert.Net.deg x8) x5 x6
    Cert.ReferenceIdeal.Gen.bcast_S_S40000 Cert.ReferenceIdeal.Gen.bcast_S40000_S40000x1_0
    Cert.ReferenceIdeal.Gen.bcast_S40000x1_S40000x256_0_1 Cert.ReferenceIdeal.Gen.bcast_S47_S1x47_1
    Cert.ReferenceIdeal.Gen.bcast_S1x47_S40000x47_0_1
    Cert.ReferenceIdeal.Gen.concatenates_S40000x256_S40000x256_S40000x512_d1
    Cert.KernelIdeal.Gen.slices_S512x47_S256x47_0_0 Cert.KernelIdeal.Gen.slices_S512x47_S256x47_256_0
    Cert.KernelIdeal.Gen.shapeCasts_S40000_S40000x1 Cert.KernelIdeal.Gen.shapeCasts_S47_S1x47
    Cert.KernelIdeal.Gen.bitsLt_bf16_f32 p q

end Program

/-- The value of the reference's result, as a function of its arguments, is the three-layer network. -/
theorem ref_value (x0 : (⟨Cert.ReferenceIdeal.S40000x128, .f32⟩ : BufTy).Contents (Elt Ideal)) (x1 : (⟨Cert.ReferenceIdeal.S256x256, .f32⟩ : BufTy).Contents (Elt Ideal)) (x2 : (⟨Cert.ReferenceIdeal.S256, .f32⟩ : BufTy).Contents (Elt Ideal)) (x3 : (⟨Cert.ReferenceIdeal.S512x256, .f32⟩ : BufTy).Contents (Elt Ideal)) (x4 : (⟨Cert.ReferenceIdeal.S256, .f32⟩ : BufTy).Contents (Elt Ideal)) (x5 : (⟨Cert.ReferenceIdeal.S512x47, .f32⟩ : BufTy).Contents (Elt Ideal)) (x6 : (⟨Cert.ReferenceIdeal.S47, .f32⟩ : BufTy).Contents (Elt Ideal)) (x7 x8 : (⟨Cert.ReferenceIdeal.S640000, .i32⟩ : BufTy).Contents (Elt Ideal)) :
    Cert.ReferenceIdeal.Read.val_main_v73 (F := Ideal) x0 x1 x2 x3 x4 x5 x6 x7 x8 = Cert.Net.out x0 x1 x2 x3 x4 x5 x6 x7 x8 := by
  rw [layer3_eq, layer2_eq, layer1_eq]
  rfl

end Cert.RefNet

end
-- ==== Proof.lean ====
/-
  The certificate of a three-layer mean-aggregating graph network: a kernel program of three pipelined regions among
  host gathers and scatter-adds, against a host reference.

  Every layer takes node features h, the sums ms of the features of each node's in-neighbours and the in-degrees, and
  returns  h · W[top] + (ms / max(deg, 1)) · W[bottom] + b  (rectified in the first two layers).  The reference joins h
  and the means along the columns and multiplies once by the stacked weights; the kernel multiplies ms by the reciprocal
  1 / max(deg, 1), narrows its operands to bf16 and adds two products.  At the ideal values narrowing is the identity,
  y · (1 / d) = y / d for d ≥ 1 whatever y, and a sum over K + K terms is the sum of its two halves, so the two programs
  compute one function of the arguments (Net.lean): the kernel's result by its three regions' block structure
  (Region0 … Region2, KernelValue.lean), the reference's by its operations read at an index (RefValue.lean).
  The frames are the generated ones; the ideal pass rewrote nothing, so the preservation claim is trivial.
-/
import proofs.«139259_j6536940224561_1_alg».proof.Defs
import proofs.«139259_j6536940224561_1_alg».proof.Proof.Gen.Kernel
import proofs.«139259_j6536940224561_1_alg».proof.Proof.Gen.Kernel.Skeleton
import proofs.«139259_j6536940224561_1_alg».proof.Proof.Gen.Kernel.Launch
import proofs.«139259_j6536940224561_1_alg».proof.Proof.Gen.Kernel.Points
import proofs.«139259_j6536940224561_1_alg».proof.Proof.Gen.Kernel.Frame
import proofs.«139259_j6536940224561_1_alg».proof.Proof.Gen.KernelIdeal
import proofs.«139259_j6536940224561_1_alg».proof.Proof.Gen.KernelIdeal.Skeleton
import proofs.«139259_j6536940224561_1_alg».proof.Proof.Gen.KernelIdeal.Launch
import proofs.«139259_j6536940224561_1_alg».proof.Proof.Gen.KernelIdeal.Points
import proofs.«139259_j6536940224561_1_alg».proof.Proof.Gen.KernelIdeal.Frame
import proofs.«139259_j6536940224561_1_alg».proof.Proof.Gen.ReferenceIdeal
import proofs.«139259_j6536940224561_1_alg».proof.Proof.Gen.ReferenceIdeal.Run
import proofs.«139259_j6536940224561_1_alg».proof.Proof.Gen.ReferenceIdeal.Read
import proofs.«139259_j6536940224561_1_alg».proof.Proof.Gen.Pre_finite_inputs
import proofs.«139259_j6536940224561_1_alg».proof.Proof.KernelRun
import proofs.«139259_j6536940224561_1_alg».proof.Proof.KernelValue
import proofs.«139259_j6536940224561_1_alg».proof.Proof.RefValue
import Idealize.ShloMosaic.Adequacy
import Idealize.ShloMosaic.Init

noncomputable section

namespace Cert.Proof

open Idealize.ShloMosaic Idealize.SL.Sem

/-- The reference's frame: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both idealized programs end with the network of the (agreeing) arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W6 (F := Ideal) m ρ c (Proc.devRef .tc Cert.KernelIdeal.main_v56), ?_, ?_⟩
  · exact Cert.KernelIdeal.ValueRun.run_named (F := Ideal) m ρ
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v73_eq, Cert.RefNet.ref_value, e0, e1, e2, e3, e4, e5, e6, e7, e8]
    exact (Cert.KernelIdeal.NetValue.W6_v56 m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
